-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x8192 .f32) (main_arg1 : FVec F S8192x128 .f32) (main_arg2 : FVec F S64x128 .f32) (main_arg3 : FVec F S64 .f32) (main_arg4 : FVec F S64x128 .f32) (main_arg5 : FVec F S64 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S1x64 : Shape := ⟨2, ![1, 64]⟩
abbrev S64x1 : Shape := ⟨2, ![64, 1]⟩
abbrev S64x8192 : Shape := ⟨2, ![64, 8192]⟩
abbrev S512x8192 : Shape := ⟨2, ![512, 8192]⟩
abbrev S512x128 : Shape := ⟨2, ![512, 128]⟩
abbrev S512x64 : Shape := ⟨2, ![512, 64]⟩
abbrev S512x1 : Shape := ⟨2, ![512, 1]⟩
abbrev S64x1024 : Shape := ⟨2, ![64, 1024]⟩
abbrev S512x1024 : Shape := ⟨2, ![512, 1024]⟩
abbrev S512 : Shape := ⟨1, ![512]⟩
abbrev S1x512 : Shape := ⟨2, ![1, 512]⟩
abbrev S16x512 : Shape := ⟨2, ![16, 512]⟩

abbrev nBuf : Space → Nat
  | .hbm => 9
  | .vmem => 9
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S64x1, .f32⟩
  | .hbm, ⟨8, _⟩ => ⟨S16x8192, .f32⟩
  | .local _ .vmem, ⟨0, _⟩ => ⟨S16x8192, .f32⟩
  | .local _ .vmem, ⟨1, _⟩ => ⟨S8192x128, .f32⟩
  | .local _ .vmem, ⟨2, _⟩ => ⟨S64x128, .f32⟩
  | .local _ .vmem, ⟨3, _⟩ => ⟨S1x64, .f32⟩
  | .local _ .vmem, ⟨4, _⟩ => ⟨S64x128, .f32⟩
  | .local _ .vmem, ⟨5, _⟩ => ⟨S64x1, .f32⟩
  | .local _ .vmem, ⟨6, _⟩ => ⟨S16x8192, .f32⟩
  | .local _ .vmem, ⟨7, _⟩ => ⟨S64x8192, .bf16⟩
  | .local _ .vmem, ⟨8, _⟩ => ⟨S512x8192, .bf16⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def k0_off2 (i : grid0.Coords) : Fin 2 → Nat :=
  let c0_48 : Index := 0#32
  let arg0 : BitVec 32 := BitVec.ofNat 32 (i 0).val
  let c512_i32_47 : BitVec 32 := 512#32
  let v95 : BitVec 32 := Scalar.muli arg0 c512_i32_47
  let v96 : Index := Scalar.indexCast v95
  ![0, v96.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S64_S1x64 : S64.ShapeCasts S1x64
  shapeCasts_S64_S64x1 : S64.ShapeCasts S64x1
  inb_S64x128_S64x128_0_0 : ∀ a, (![0, 0] : Fin 2 → Nat) a + S64x128.size a ≤ S64x128.size a
  h_S64x128 : 0 < S64x128.numel
  inb_S8192x128_S8192x128_0_0 : ∀ a, (![0, 0] : Fin 2 → Nat) a + S8192x128.size a ≤ S8192x128.size a
  h_S8192x128 : 0 < S8192x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  packedbf16_S64x8192_S64x8192_0_0 : (Rect.unit (s := S64x8192) ![0, 0] S64x8192.size inb_S64x8192_S64x8192_0_0).PackedRows (EltTy.packing .bf16)
  inb_S16x8192_S16x8192_0_0 : ∀ a, (![0, 0] : Fin 2 → Nat) a + S16x8192.size a ≤ S16x8192.size a
  h_S16x8192 : 0 < S16x8192.numel
  h_S512x128 : 0 < S512x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x8192_S64x1024_0_0 : ∀ a, (![0, 0] : Fin 2 → Nat) a + S64x1024.size a ≤ S64x8192.size a
  h_S64x1024 : 0 < S64x1024.numel
  reduces_S512x1024_S512 : S512x1024.Reduces [1] S512
  shapeCasts_S512_S512x1 : S512.ShapeCasts S512x1
  inb_S512x8192_S512x1024_0_0 : ∀ a, (![0, 0] : Fin 2 → Nat) a + S512x1024.size a ≤ S512x8192.size a
  h_S512x1024 : 0 < S512x1024.numel
  shapeCasts_S512x1024_S512x1024 : S512x1024.ShapeCasts S512x1024
  packedbf16_S512x8192_S512x1024_0_0 : (Rect.unit (s := S512x8192) ![0, 0] S512x1024.size inb_S512x8192_S512x1024_0_0).PackedRows (EltTy.packing .bf16)
  inb_S64x8192_S64x1024_0_1024 : ∀ a, (![0, 1024] : Fin 2 → Nat) a + S64x1024.size a ≤ S64x8192.size a
  inb_S512x8192_S512x1024_0_1024 : ∀ a, (![0, 1024] : Fin 2 → Nat) a + S512x1024.size a ≤ S512x8192.size a
  packedbf16_S512x8192_S512x1024_0_1024 : (Rect.unit (s := S512x8192) ![0, 1024] S512x1024.size inb_S512x8192_S512x1024_0_1024).PackedRows (EltTy.packing .bf16)
  inb_S64x8192_S64x1024_0_2048 : ∀ a, (![0, 2048] : Fin 2 → Nat) a + S64x1024.size a ≤ S64x8192.size a
  inb_S512x8192_S512x1024_0_2048 : ∀ a, (![0, 2048] : Fin 2 → Nat) a + S512x1024.size a ≤ S512x8192.size a
  packedbf16_S512x8192_S512x1024_0_2048 : (Rect.unit (s := S512x8192) ![0, 2048] S512x1024.size inb_S512x8192_S512x1024_0_2048).PackedRows (EltTy.packing .bf16)
  inb_S64x8192_S64x1024_0_3072 : ∀ a, (![0, 3072] : Fin 2 → Nat) a + S64x1024.size a ≤ S64x8192.size a
  inb_S512x8192_S512x1024_0_3072 : ∀ a, (![0, 3072] : Fin 2 → Nat) a + S512x1024.size a ≤ S512x8192.size a
  packedbf16_S512x8192_S512x1024_0_3072 : (Rect.unit (s := S512x8192) ![0, 3072] S512x1024.size inb_S512x8192_S512x1024_0_3072).PackedRows (EltTy.packing .bf16)
  inb_S64x8192_S64x1024_0_4096 : ∀ a, (![0, 4096] : Fin 2 → Nat) a + S64x1024.size a ≤ S64x8192.size a
  inb_S512x8192_S512x1024_0_4096 : ∀ a, (![0, 4096] : Fin 2 → Nat) a + S512x1024.size a ≤ S512x8192.size a
  packedbf16_S512x8192_S512x1024_0_4096 : (Rect.unit (s := S512x8192) ![0, 4096] S512x1024.size inb_S512x8192_S512x1024_0_4096).PackedRows (EltTy.packing .bf16)
  inb_S64x8192_S64x1024_0_5120 : ∀ a, (![0, 5120] : Fin 2 → Nat) a + S64x1024.size a ≤ S64x8192.size a
  inb_S512x8192_S512x1024_0_5120 : ∀ a, (![0, 5120] : Fin 2 → Nat) a + S512x1024.size a ≤ S512x8192.size a
  packedbf16_S512x8192_S512x1024_0_5120 : (Rect.unit (s := S512x8192) ![0, 5120] S512x1024.size inb_S512x8192_S512x1024_0_5120).PackedRows (EltTy.packing .bf16)
  inb_S64x8192_S64x1024_0_6144 : ∀ a, (![0, 6144] : Fin 2 → Nat) a + S64x1024.size a ≤ S64x8192.size a
  inb_S512x8192_S512x1024_0_6144 : ∀ a, (![0, 6144] : Fin 2 → Nat) a + S512x1024.size a ≤ S512x8192.size a
  packedbf16_S512x8192_S512x1024_0_6144 : (Rect.unit (s := S512x8192) ![0, 6144] S512x1024.size inb_S512x8192_S512x1024_0_6144).PackedRows (EltTy.packing .bf16)
  inb_S64x8192_S64x1024_0_7168 : ∀ a, (![0, 7168] : Fin 2 → Nat) a + S64x1024.size a ≤ S64x8192.size a
  inb_S512x8192_S512x1024_0_7168 : ∀ a, (![0, 7168] : Fin 2 → Nat) a + S512x1024.size a ≤ S512x8192.size a
  packedbf16_S512x8192_S512x1024_0_7168 : (Rect.unit (s := S512x8192) ![0, 7168] S512x1024.size inb_S512x8192_S512x1024_0_7168).PackedRows (EltTy.packing .bf16)
  transposes_S512x1_p1_0_S1x512 : S512x1.Transposes [1, 0] S1x512
  h_S16x512 : 0 < S16x512.numel
  broadcasts_S1x512_S16x512 : S1x512.Broadcasts S16x512
  shapeCasts_S16x8192_S16x8192 : S16x8192.ShapeCasts S16x8192
  inb_S512x8192_S512x8192_0_0 : ∀ a, (![0, 0] : Fin 2 → Nat) a + S512x8192.size a ≤ S512x8192.size a
  h_S512x8192 : 0 < S512x8192.numel
  dot_S64x128_S8192x128_S64x8192_1_1_0_0_n_n_wf : DotDims.WF S64x128 S8192x128 S64x8192 [1] [1] [0] [0] [] []
  dot_S512x128_S64x128_S512x64_1_1_0_0_n_n_wf : DotDims.WF S512x128 S64x128 S512x64 [1] [1] [0] [0] [] []
  dot_S512x64_S64x1024_S512x1024_1_0_0_1_n_n_wf : DotDims.WF S512x64 S64x1024 S512x1024 [1] [0] [0] [1] [] []
  dot_S16x512_S512x8192_S16x8192_1_0_0_1_n_n_wf : DotDims.WF S16x512 S512x8192 S16x8192 [1] [0] [0] [1] [] []
  hrank0 : 0 < grid0.rank
  k0_off1_inb : ∀ i : grid0.Coords, ∀ a, (k0_off1 i) a + S512x128.size a ≤ S8192x128.size a
  k0_off2_inb : ∀ i : grid0.Coords, ∀ a, (k0_off2 i) a + S16x512.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x8192.size a ≤ S16x8192.size a
  hwx0_6 : ∀ i : grid0.Coords, EltTy.bits .f32 = 32 ∨ (Rect.block (s := S16x8192) S16x8192.size (cc0_transform_6 i) (hinb0_6 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S16x512_S512x8192_S16x8192_1_0_0_1_n_n : DotDims S16x512 S512x8192 S16x8192 where
  lhsContracting := [1]
  rhsContracting := [0]
  lhsNonContracting := [0]
  rhsNonContracting := [1]
  lhsBatch := []
  rhsBatch := []
  wf := dot_S16x512_S512x8192_S16x8192_1_0_0_1_n_n_wf

abbrev win0_0 : Pipeline.Window sig grid0 :=
  Pipeline.Window.ofSpec (Memref.whole main_arg0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x8192.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S128x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  dot_S16x8192_S8192x8192_S16x8192_1_0_0_1_n_n_wf : DotDims.WF S16x8192 S8192x8192 S16x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf

class Facts : Prop extends Facts₀ where

variable [Facts]
-- ==== Proof.KDefs.lean ====
/-
  The kernel body's arithmetic at one grid point, as functions of the blocks it loads.

  At point `t` the body reads rows `512·t … 512·t + 511` of the embedding, forms their query features,
  multiplies them with the key features it keeps in a scratch buffer, exponentiates, sums each row
  (in eight column chunks of 1024), divides the matching belief columns by the row sums, and adds the
  product of that weight block with the exponentials to the output block:
    step[b, j] = Σ_r (belief[b, 512·t + r] / Z[512·t + r]) · exp (lg[512·t + r, j]).
-/
import proofs.«121411_g5935644803188_cont_9to1c4b_610_11_alg».proof.Proof.Gen.KernelIdeal
import Idealize.ShloMosaic.Lib.ValueIdx

noncomputable section

namespace Cert.KernelIdeal.K

open Idealize.ShloMosaic Idealize.ShloMosaic.ValueIdx Cert.KernelIdeal
open scoped BigOperators

/-- Row `r` of the block of 512 rows that grid point `t` works on, as a row of the whole array. -/
def row (t : Fin 16) (r : Fin 512) : Fin 8192 := ⟨512 * t.val + r.val, by omega⟩

/-- Column `jj` of column chunk `c` (1024 columns each), as a column of the whole array. -/
def col (c : Fin 8) (jj : Fin 1024) : Fin 8192 := ⟨1024 * c.val + jj.val, by omega⟩

/-- The key features at `(h, s)` from the key weight block `x4`, the embedding block `x1` and the key bias
    column `x5`: `Σ_d x4[h, d] · x1[s, d] + x5[h, 0]`. -/
def ktAt (x4 : FVec Ideal S64x128 .f32) (x1 : FVec Ideal S8192x128 .f32) (x5 : FVec Ideal S64x1 .f32)
    (h : Fin 64) (s : Fin 8192) : EReal :=
  (∑ d : Fin 128, x4 (ix2 h d) * x1 (ix2 s d)) + x5 (ix2 h 0)

/-- The same as an array: what the first grid point stores into the scratch buffer it keeps. -/
def ktOf (x4 : FVec Ideal S64x128 .f32) (x1 : FVec Ideal S8192x128 .f32) (x5 : FVec Ideal S64x1 .f32) :
    FVec Ideal S64x8192 .bf16 :=
  fun idx => ktAt x4 x1 x5 ⟨(idx 0).val, (idx 0).isLt⟩ ⟨(idx 1).val, (idx 1).isLt⟩

/-- The query features at `(s, h)` from the embedding block `x1`, the query weight block `x2` and the query
    bias row `x3`: `Σ_d x1[s, d] · x2[h, d] + x3[0, h]`. -/
def qAt (x1 : FVec Ideal S8192x128 .f32) (x2 : FVec Ideal S64x128 .f32) (x3 : FVec Ideal S1x64 .f32)
    (s : Fin 8192) (h : Fin 64) : EReal :=
  (∑ d : Fin 128, x1 (ix2 s d) * x2 (ix2 h d)) + x3 (ix2 0 h)

/-- The logit at `(s, j)` over a key-feature array `kt`: `Σ_h q[s, h] · kt[h, j]`. -/
def lgAt (x1 : FVec Ideal S8192x128 .f32) (x2 : FVec Ideal S64x128 .f32) (x3 : FVec Ideal S1x64 .f32)
    (kt : FVec Ideal S64x8192 .bf16) (s j : Fin 8192) : EReal :=
  ∑ h : Fin 64, qAt x1 x2 x3 s h * kt (ix2 h j)

/-- Row `s`'s sum of exponentials. -/
def zAt (x1 : FVec Ideal S8192x128 .f32) (x2 : FVec Ideal S64x128 .f32) (x3 : FVec Ideal S1x64 .f32)
    (kt : FVec Ideal S64x8192 .bf16) (s : Fin 8192) : EReal :=
  ∑ j : Fin 8192, Ideal.exp (lgAt x1 x2 x3 kt s j)

/-- What grid point `t` adds to the output block at `(b, j)`. -/
def stepAt (x0 : FVec Ideal S16x8192 .f32) (x1 : FVec Ideal S8192x128 .f32) (x2 : FVec Ideal S64x128 .f32)
    (x3 : FVec Ideal S1x64 .f32) (kt : FVec Ideal S64x8192 .bf16) (t : Fin 16) (b : Fin 16) (j : Fin 8192) : EReal :=
  ∑ r : Fin 512, Ideal.div (x0 (ix2 b (row t r))) (zAt x1 x2 x3 kt (row t r)) * Ideal.exp (lgAt x1 x2 x3 kt (row t r) j)

end Cert.KernelIdeal.K

end
-- ==== Proof.KPay.lean ====
/-
  Each pure value the kernel body computes between its loads and stores, read at an index.

  The body's arithmetic: the key features (a 64×128 by 8192×128 product contracted over the last
  axis of both, plus the bias column); the query features of a block of 512 rows (the same
  with the bias row); for each of eight column chunks of 1024 the exponentials of the
  query–key products; the running row sums of those chunks; the belief block divided by the row
  sums; and the product of that weight block with the stored exponentials. At the ideal instance a
  change of float format is the identity, a `tpu.matmul` into a zero accumulator is the plain
  sum of products, and a lane reduction is the plain sum.
-/
import proofs.«121411_g5935644803188_cont_9to1c4b_610_11_alg».proof.Proof.Gen.KernelIdeal.Skeleton
import proofs.«121411_g5935644803188_cont_9to1c4b_610_11_alg».proof.Proof.KDefs
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KPay

open Idealize.ShloMosaic Idealize.ShloMosaic.ValueIdx
open Cert.KernelIdeal Cert.KernelIdeal.Gen Cert.KernelIdeal.K
open scoped BigOperators

/-- One chunk's exponential at `(r, jj)`: `exp (Σ_h q[r, h] · kc[h, jj])`. -/
def chunkExp (q : FVec Ideal S512x64 .bf16) (kc : FVec Ideal S64x1024 .bf16) (r : Fin 512) (jj : Fin 1024) : EReal :=
  Ideal.exp (∑ h : Fin 64, q (ix2 r h) * kc (ix2 h jj))

/-! ## The four products read at an index -/

theorem lhsA_0 (i : S64x8192.Idx) (q : dot_S64x128_S8192x128_S64x8192_1_1_0_0_n_n.contr.Idx) :
    (dot_S64x128_S8192x128_S64x8192_1_1_0_0_n_n.lhsIdx i q 0).val = (i 0).val := by
  unfold DotDims.lhsIdx
  rw [dif_neg (show ¬(0 : Fin S64x128.rank) ∈ dot_S64x128_S8192x128_S64x8192_1_1_0_0_n_n.lhsBatch by decide), dif_pos (show (0 : Fin S64x128.rank) ∈ dot_S64x128_S8192x128_S64x8192_1_1_0_0_n_n.lhsNonContracting by decide)]
  rfl
theorem lhsA_1 (i : S64x8192.Idx) (q : dot_S64x128_S8192x128_S64x8192_1_1_0_0_n_n.contr.Idx) :
    (dot_S64x128_S8192x128_S64x8192_1_1_0_0_n_n.lhsIdx i q 1).val = (q ⟨0, by decide⟩).val :=
  dot_S64x128_S8192x128_S64x8192_1_1_0_0_n_n.lhsIdx_val_of_single rfl i q
theorem rhsA_0 (i : S64x8192.Idx) (q : dot_S64x128_S8192x128_S64x8192_1_1_0_0_n_n.contr.Idx) :
    (dot_S64x128_S8192x128_S64x8192_1_1_0_0_n_n.rhsIdx i q 0).val = (i 1).val := by
  unfold DotDims.rhsIdx
  rw [dif_neg (show ¬(0 : Fin S8192x128.rank) ∈ dot_S64x128_S8192x128_S64x8192_1_1_0_0_n_n.rhsBatch by decide), dif_pos (show (0 : Fin S8192x128.rank) ∈ dot_S64x128_S8192x128_S64x8192_1_1_0_0_n_n.rhsNonContracting by decide)]
  rfl
theorem rhsA_1 (i : S64x8192.Idx) (q : dot_S64x128_S8192x128_S64x8192_1_1_0_0_n_n.contr.Idx) :
    (dot_S64x128_S8192x128_S64x8192_1_1_0_0_n_n.rhsIdx i q 1).val = (q ⟨0, by decide⟩).val :=
  dot_S64x128_S8192x128_S64x8192_1_1_0_0_n_n.rhsIdx_val_of_single rfl i q
theorem matmulA_apply (a : FVec Ideal S64x128 .f32) (b : FVec Ideal S8192x128 .f32) (r : Fin 64) (c : Fin 8192) :
    matmul dot_S64x128_S8192x128_S64x8192_1_1_0_0_n_n none a b (constant S64x8192 .f32 0x00000000#32) (ix2 r c)
      = ∑ k : Fin 128, a (ix2 r k) * b (ix2 c k) := by
  simp only [matmul]
  rw [Ideal.matmul_constant_zero_apply, ← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 r c) ((contrEquiv1 dot_S64x128_S8192x128_S64x8192_1_1_0_0_n_n 128 rfl rfl).symm k) = ix2 r k := funext fun x => Fin.ext (by
    match x with
    | ⟨0, _⟩ => exact lhsA_0 _ _
    | ⟨1, _⟩ => exact (lhsA_1 _ _).trans hk)
  have er : dot_S64x128_S8192x128_S64x8192_1_1_0_0_n_n.rhsIdx (ix2 r c) ((contrEquiv1 dot_S64x128_S8192x128_S64x8192_1_1_0_0_n_n 128 rfl rfl).symm k) = ix2 c k := funext fun x => Fin.ext (by
    match x with
    | ⟨0, _⟩ => exact rhsA_0 _ _
    | ⟨1, _⟩ => exact (rhsA_1 _ _).trans hk)
  rw [el, er]

theorem lhsB_0 (i : S512x64.Idx) (q : dot_S512x128_S64x128_S512x64_1_1_0_0_n_n.contr.Idx) :
    (dot_S512x128_S64x128_S512x64_1_1_0_0_n_n.lhsIdx i q 0).val = (i 0).val := by
  unfold DotDims.lhsIdx
  rw [dif_neg (show ¬(0 : Fin S512x128.rank) ∈ dot_S512x128_S64x128_S512x64_1_1_0_0_n_n.lhsBatch by decide), dif_pos (show (0 : Fin S512x128.rank) ∈ dot_S512x128_S64x128_S512x64_1_1_0_0_n_n.lhsNonContracting by decide)]
  rfl
theorem lhsB_1 (i : S512x64.Idx) (q : dot_S512x128_S64x128_S512x64_1_1_0_0_n_n.contr.Idx) :
    (dot_S512x128_S64x128_S512x64_1_1_0_0_n_n.lhsIdx i q 1).val = (q ⟨0, by decide⟩).val :=
  dot_S512x128_S64x128_S512x64_1_1_0_0_n_n.lhsIdx_val_of_single rfl i q
theorem rhsB_0 (i : S512x64.Idx) (q : dot_S512x128_S64x128_S512x64_1_1_0_0_n_n.contr.Idx) :
    (dot_S512x128_S64x128_S512x64_1_1_0_0_n_n.rhsIdx i q 0).val = (i 1).val := by
  unfold DotDims.rhsIdx
  rw [dif_neg (show ¬(0 : Fin S64x128.rank) ∈ dot_S512x128_S64x128_S512x64_1_1_0_0_n_n.rhsBatch by decide), dif_pos (show (0 : Fin S64x128.rank) ∈ dot_S512x128_S64x128_S512x64_1_1_0_0_n_n.rhsNonContracting by decide)]
  rfl
theorem rhsB_1 (i : S512x64.Idx) (q : dot_S512x128_S64x128_S512x64_1_1_0_0_n_n.contr.Idx) :
    (dot_S512x128_S64x128_S512x64_1_1_0_0_n_n.rhsIdx i q 1).val = (q ⟨0, by decide⟩).val :=
  dot_S512x128_S64x128_S512x64_1_1_0_0_n_n.rhsIdx_val_of_single rfl i q
theorem matmulB_apply (a : FVec Ideal S512x128 .f32) (b : FVec Ideal S64x128 .f32) (r : Fin 512) (c : Fin 64) :
    matmul dot_S512x128_S64x128_S512x64_1_1_0_0_n_n none a b (constant S512x64 .f32 0x00000000#32) (ix2 r c)
      = ∑ k : Fin 128, a (ix2 r k) * b (ix2 c k) := by
  simp only [matmul]
  rw [Ideal.matmul_constant_zero_apply, ← Equiv.sum_comp (contrEquiv1 dot_S512x128_S64x128_S512x64_1_1_0_0_n_n 128 rfl rfl).symm]
  refine Finset.sum_congr rfl fun k _ => ?_
  have hk := contrEquiv1_symm_val dot_S512x128_S64x128_S512x64_1_1_0_0_n_n 128 rfl rfl k
  have el : dot_S512x128_S64x128_S512x64_1_1_0_0_n_n.lhsIdx (ix2 r c) ((contrEquiv1 dot_S512x128_S64x128_S512x64_1_1_0_0_n_n 128 rfl rfl).symm k) = ix2 r k := funext fun x => Fin.ext (by
    match x with
    | ⟨0, _⟩ => exact lhsB_0 _ _
    | ⟨1, _⟩ => exact (lhsB_1 _ _).trans hk)
  have er : dot_S512x128_S64x128_S512x64_1_1_0_0_n_n.rhsIdx (ix2 r c) ((contrEquiv1 dot_S512x128_S64x128_S512x64_1_1_0_0_n_n 128 rfl rfl).symm k) = ix2 c k := funext fun x => Fin.ext (by
    match x with
    | ⟨0, _⟩ => exact rhsB_0 _ _
    | ⟨1, _⟩ => exact (rhsB_1 _ _).trans hk)
  rw [el, er]

theorem lhsC_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhsC_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem rhsC_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem rhsC_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl
theorem matmulC_apply (a : FVec Ideal S512x64 .bf16) (b : FVec Ideal S64x1024 .bf16) (r : Fin 512) (c : Fin 1024) :
    matmul dot_S512x64_S64x1024_S512x1024_1_0_0_1_n_n none a b (constant S512x1024 .f32 0x00000000#32) (ix2 r c)
      = ∑ k : Fin 64, a (ix2 r k) * b (ix2 k c) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 r c) ((contrEquiv1 dot_S512x64_S64x1024_S512x1024_1_0_0_1_n_n 64 rfl rfl).symm k) = ix2 r k := funext fun x => Fin.ext (by
    match x with
    | ⟨0, _⟩ => exact lhsC_0 _ _
    | ⟨1, _⟩ => exact (lhsC_1 _ _).trans hk)
  have er : dot_S512x64_S64x1024_S512x1024_1_0_0_1_n_n.rhsIdx (ix2 r c) ((contrEquiv1 dot_S512x64_S64x1024_S512x1024_1_0_0_1_n_n 64 rfl rfl).symm k) = ix2 k c := funext fun x => Fin.ext (by
    match x with
    | ⟨0, _⟩ => exact (rhsC_0 _ _).trans hk
    | ⟨1, _⟩ => exact rhsC_1 _ _)
  rw [el, er]

theorem lhsD_0 (i : S16x8192.Idx) (q : dot_S16x512_S512x8192_S16x8192_1_0_0_1_n_n.contr.Idx) :
    (dot_S16x512_S512x8192_S16x8192_1_0_0_1_n_n.lhsIdx i q 0).val = (i 0).val := by
  unfold DotDims.lhsIdx
  rw [dif_neg (show ¬(0 : Fin S16x512.rank) ∈ dot_S16x512_S512x8192_S16x8192_1_0_0_1_n_n.lhsBatch by decide), dif_pos (show (0 : Fin S16x512.rank) ∈ dot_S16x512_S512x8192_S16x8192_1_0_0_1_n_n.lhsNonContracting by decide)]
  rfl
theorem lhsD_1 (i : S16x8192.Idx) (q : dot_S16x512_S512x8192_S16x8192_1_0_0_1_n_n.contr.Idx) :
    (dot_S16x512_S512x8192_S16x8192_1_0_0_1_n_n.lhsIdx i q 1).val = (q ⟨0, by decide⟩).val :=
  dot_S16x512_S512x8192_S16x8192_1_0_0_1_n_n.lhsIdx_val_of_single rfl i q
theorem rhsD_0 (i : S16x8192.Idx) (q : dot_S16x512_S512x8192_S16x8192_1_0_0_1_n_n.contr.Idx) :
    (dot_S16x512_S512x8192_S16x8192_1_0_0_1_n_n.rhsIdx i q 0).val = (q ⟨0, by decide⟩).val :=
  dot_S16x512_S512x8192_S16x8192_1_0_0_1_n_n.rhsIdx_val_of_single rfl i q
theorem rhsD_1 (i : S16x8192.Idx) (q : dot_S16x512_S512x8192_S16x8192_1_0_0_1_n_n.contr.Idx) :
    (dot_S16x512_S512x8192_S16x8192_1_0_0_1_n_n.rhsIdx i q 1).val = (i 1).val := by
  unfold DotDims.rhsIdx
  rw [dif_neg (show ¬(1 : Fin S512x8192.rank) ∈ dot_S16x512_S512x8192_S16x8192_1_0_0_1_n_n.rhsBatch by decide), dif_pos (show (1 : Fin S512x8192.rank) ∈ dot_S16x512_S512x8192_S16x8192_1_0_0_1_n_n.rhsNonContracting by decide)]
  rfl
theorem matmulD_apply (a : FVec Ideal S16x512 .bf16) (b : FVec Ideal S512x8192 .bf16) (r : Fin 16) (c : Fin 8192) :
    matmul dot_S16x512_S512x8192_S16x8192_1_0_0_1_n_n none a b (constant S16x8192 .f32 0x00000000#32) (ix2 r c)
      = ∑ k : Fin 512, a (ix2 r k) * b (ix2 k c) := by
  simp only [matmul]
  rw [Ideal.matmul_constant_zero_apply, ← Equiv.sum_comp (contrEquiv1 dot_S16x512_S512x8192_S16x8192_1_0_0_1_n_n 512 rfl rfl).symm]
  refine Finset.sum_congr rfl fun k _ => ?_
  have hk := contrEquiv1_symm_val dot_S16x512_S512x8192_S16x8192_1_0_0_1_n_n 512 rfl rfl k
  have el : dot_S16x512_S512x8192_S16x8192_1_0_0_1_n_n.lhsIdx (ix2 r c) ((contrEquiv1 dot_S16x512_S512x8192_S16x8192_1_0_0_1_n_n 512 rfl rfl).symm k) = ix2 r k := funext fun x => Fin.ext (by
    match x with
    | ⟨0, _⟩ => exact lhsD_0 _ _
    | ⟨1, _⟩ => exact (lhsD_1 _ _).trans hk)
  have er : dot_S16x512_S512x8192_S16x8192_1_0_0_1_n_n.rhsIdx (ix2 r c) ((contrEquiv1 dot_S16x512_S512x8192_S16x8192_1_0_0_1_n_n 512 rfl rfl).symm k) = ix2 k c := funext fun x => Fin.ext (by
    match x with
    | ⟨0, _⟩ => exact (rhsD_0 _ _).trans hk
    | ⟨1, _⟩ => exact rhsD_1 _ _)
  rw [el, er]

/-! ## Layout operations at an index -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A change of format followed by a cast to the same shape reads the operand. -/
theorem store_apply {s : Shape} (x : FVec Ideal s .f32) (hb : FTy.bits .bf16 < FTy.bits .f32) (hs : s.ShapeCasts s)
    (i : s.Idx) : shapeCast s (truncf .bf16 x hb) hs i = x i :=
  congrFun (shapeCast_self _ hs) i

/-- A lane sum of a `[512, 1024]` block kept as a column: at `(r, 0)` the sum of row `r`. -/
theorem rowSum_apply (src : FVec Ideal S512x1024 .f32) (h : S512x1024.Reduces [1] S512) (hφ : FKind.Formats .f32)
    (hacc : (0x00000000#32 : BitVec 32) = FKind.add.neutral .f32 hφ) (hc : S512.ShapeCasts S512x1) (r : Fin 512) :
    shapeCast S512x1 (multiReduction .add [1] S512 src 0x00000000#32 h hφ hacc) hc (ix2 r (0 : Fin 1))
      = ∑ jj : Fin 1024, src (ix2 r jj) := by
  refine (shapeCast_apply _ hc (ix2 r (0 : Fin 1)) (ix1 r) ?_).trans ?_
  · rw [Shape.rowMajor_val_one, Shape.rowMajor_val_two]
    show r.val = r.val * 1 + 0
    omega
  · refine (Ideal.multiReduction_add_single src 0x00000000#32 h hφ hacc (ix1 r)).trans ?_
    exact Finset.sum_congr rfl fun jj _ => congrArg src (funext fun a => Fin.ext (by
      match a with
      | ⟨0, _⟩ => rfl
      | ⟨1, _⟩ => rfl))

/-- One chunk: the exponential of the product into the zero accumulator. -/
theorem chunk_apply (q : FVec Ideal S512x64 .bf16) (kc : FVec Ideal S64x1024 .bf16) (r : Fin 512) (jj : Fin 1024) :
    exp (matmul dot_S512x64_S64x1024_S512x1024_1_0_0_1_n_n none q kc (constant S512x1024 .f32 0x00000000#32)) (ix2 r jj)
      = chunkExp q kc r jj :=
  congrArg Ideal.exp (matmulC_apply q kc r jj)

/-! ## The payloads -/

/-- The stored key features at `(h, s)`. -/
theorem pay2_apply (x4 : FVec Ideal S64x128 .f32) (x1 : FVec Ideal S8192x128 .f32) (x5 : FVec Ideal S64x1 .f32)
    (h : Fin 64) (s : Fin 8192) : k0_pay2 (F := Ideal) x4 x1 x5 (ix2 h s) = ktAt x4 x1 x5 h s := by
  unfold k0_pay2 ktAt
  refine (congrFun (shapeCast_self _ _) (ix2 h s)).trans ?_
  refine congrArg₂ (· + ·) (matmulA_apply x4 x1 h s) ?_
  exact (broadcastTo_a1_ab_apply _ _ h s).trans (congrFun (shapeCast_self x5 _) _)

/-- The stored key features as an array. -/
theorem pay2_eq (x4 : FVec Ideal S64x128 .f32) (x1 : FVec Ideal S8192x128 .f32) (x5 : FVec Ideal S64x1 .f32) :
    k0_pay2 (F := Ideal) x4 x1 x5 = ktOf x4 x1 x5 := by
  funext idx
  have e : idx = ix2 (⟨(idx 0).val, (idx 0).isLt⟩ : Fin 64) (⟨(idx 1).val, (idx 1).isLt⟩ : Fin 8192) :=
    funext fun a => match a with | ⟨0, _⟩ => rfl | ⟨1, _⟩ => rfl
  exact (congrArg (k0_pay2 (F := Ideal) x4 x1 x5) e).trans (pay2_apply x4 x1 x5 _ _)

/-- The query features of a block of 512 embedding rows at `(r, h)`. -/
theorem pay4_apply (v5 : FVec Ideal S512x128 .f32) (v6 : FVec Ideal S64x128 .f32) (v8 : FVec Ideal S1x64 .f32)
    (r : Fin 512) (h : Fin 64) :
    k0_pay4 (F := Ideal) v5 v6 v8 (ix2 r h) = (∑ d : Fin 128, v5 (ix2 r d) * v6 (ix2 h d)) + v8 (ix2 0 h) := by
  unfold k0_pay4
  refine congrArg₂ (· + ·) (matmulB_apply v5 v6 r h) ?_
  exact (broadcastTo_1b_ab_apply _ _ r h).trans (congrFun (shapeCast_self v8 _) _)

/-- The first two chunks' exponentials (their query features are still a term over the loads). -/
theorem pay5_apply (v5 : FVec Ideal S512x128 .f32) (v6 : FVec Ideal S64x128 .f32) (v8 : FVec Ideal S1x64 .f32)
    (v14 : FVec Ideal S64x1024 .bf16) (r : Fin 512) (jj : Fin 1024) :
    k0_pay5 (F := Ideal) v5 v6 v8 v14 (ix2 r jj) = chunkExp (k0_pay4 (F := Ideal) v5 v6 v8) v14 r jj :=
  chunk_apply (k0_pay4 (F := Ideal) v5 v6 v8) v14 r jj
theorem pay7_apply (v5 : FVec Ideal S512x128 .f32) (v6 : FVec Ideal S64x128 .f32) (v8 : FVec Ideal S1x64 .f32)
    (v24 : FVec Ideal S64x1024 .bf16) (r : Fin 512) (jj : Fin 1024) :
    k0_pay7 (F := Ideal) v5 v6 v8 v24 (ix2 r jj) = chunkExp (k0_pay4 (F := Ideal) v5 v6 v8) v24 r jj :=
  chunk_apply (k0_pay4 (F := Ideal) v5 v6 v8) v24 r jj

/-- The later chunks' exponentials. -/
theorem pay10_apply (v12 : FVec Ideal S512x64 .bf16) (v34 : FVec Ideal S64x1024 .bf16) (r : Fin 512) (jj : Fin 1024) :
    k0_pay10 (F := Ideal) v12 v34 (ix2 r jj) = chunkExp v12 v34 r jj :=
  chunk_apply v12 v34 r jj
theorem pay12_apply (v12 : FVec Ideal S512x64 .bf16) (v44 : FVec Ideal S64x1024 .bf16) (r : Fin 512) (jj : Fin 1024) :
    k0_pay12 (F := Ideal) v12 v44 (ix2 r jj) = chunkExp v12 v44 r jj :=
  chunk_apply v12 v44 r jj
theorem pay14_apply (v12 : FVec Ideal S512x64 .bf16) (v54 : FVec Ideal S64x1024 .bf16) (r : Fin 512) (jj : Fin 1024) :
    k0_pay14 (F := Ideal) v12 v54 (ix2 r jj) = chunkExp v12 v54 r jj :=
  chunk_apply v12 v54 r jj
theorem pay17_apply (v12 : FVec Ideal S512x64 .bf16) (v64 : FVec Ideal S64x1024 .bf16) (r : Fin 512) (jj : Fin 1024) :
    k0_pay17 (F := Ideal) v12 v64 (ix2 r jj) = chunkExp v12 v64 r jj :=
  chunk_apply v12 v64 r jj
theorem pay20_apply (v12 : FVec Ideal S512x64 .bf16) (v74 : FVec Ideal S64x1024 .bf16) (r : Fin 512) (jj : Fin 1024) :
    k0_pay20 (F := Ideal) v12 v74 (ix2 r jj) = chunkExp v12 v74 r jj :=
  chunk_apply v12 v74 r jj
theorem pay22_apply (v12 : FVec Ideal S512x64 .bf16) (v84 : FVec Ideal S64x1024 .bf16) (r : Fin 512) (jj : Fin 1024) :
    k0_pay22 (F := Ideal) v12 v84 (ix2 r jj) = chunkExp v12 v84 r jj :=
  chunk_apply v12 v84 r jj

/-- What is stored of a chunk is the chunk (a change of format and a cast to the same shape). -/
theorem pay6_apply (v5 : FVec Ideal S512x128 .f32) (v6 : FVec Ideal S64x128 .f32) (v8 : FVec Ideal S1x64 .f32)
    (v14 : FVec Ideal S64x1024 .bf16) (i : S512x1024.Idx) :
    k0_pay6 (F := Ideal) v5 v6 v8 v14 i = k0_pay5 (F := Ideal) v5 v6 v8 v14 i :=
  store_apply _ _ _ i
theorem pay9_apply (v5 : FVec Ideal S512x128 .f32) (v6 : FVec Ideal S64x128 .f32) (v8 : FVec Ideal S1x64 .f32)
    (v24 : FVec Ideal S64x1024 .bf16) (i : S512x1024.Idx) :
    k0_pay9 (F := Ideal) v5 v6 v8 v24 i = k0_pay7 (F := Ideal) v5 v6 v8 v24 i :=
  store_apply _ _ _ i
theorem pay11_apply (v12 : FVec Ideal S512x64 .bf16) (v34 : FVec Ideal S64x1024 .bf16) (i : S512x1024.Idx) :
    k0_pay11 (F := Ideal) v12 v34 i = k0_pay10 (F := Ideal) v12 v34 i :=
  store_apply _ _ _ i
theorem pay13_apply (v12 : FVec Ideal S512x64 .bf16) (v44 : FVec Ideal S64x1024 .bf16) (i : S512x1024.Idx) :
    k0_pay13 (F := Ideal) v12 v44 i = k0_pay12 (F := Ideal) v12 v44 i :=
  store_apply _ _ _ i
theorem pay16_apply (v12 : FVec Ideal S512x64 .bf16) (v54 : FVec Ideal S64x1024 .bf16) (i : S512x1024.Idx) :
    k0_pay16 (F := Ideal) v12 v54 i = k0_pay14 (F := Ideal) v12 v54 i :=
  store_apply _ _ _ i
theorem pay21_apply (v12 : FVec Ideal S512x64 .bf16) (v74 : FVec Ideal S64x1024 .bf16) (i : S512x1024.Idx) :
    k0_pay21 (F := Ideal) v12 v74 i = k0_pay20 (F := Ideal) v12 v74 i :=
  store_apply _ _ _ i
theorem pay23_apply (v12 : FVec Ideal S512x64 .bf16) (v84 : FVec Ideal S64x1024 .bf16) (i : S512x1024.Idx) :
    k0_pay23 (F := Ideal) v12 v84 i = k0_pay22 (F := Ideal) v12 v84 i :=
  store_apply _ _ _ i
theorem pay19_apply (v66 : FVec Ideal S512x1024 .f32) (i : S512x1024.Idx) : k0_pay19 (F := Ideal) v66 i = v66 i :=
  store_apply v66 _ _ i

/-- The running row sums: after chunks 0 and 1, … -/
theorem pay8_apply (v5 : FVec Ideal S512x128 .f32) (v6 : FVec Ideal S64x128 .f32) (v8 : FVec Ideal S1x64 .f32)
    (v14 v24 : FVec Ideal S64x1024 .bf16) (r : Fin 512) :
    k0_pay8 (F := Ideal) v5 v6 v8 v14 v24 (ix2 r 0)
      = (0 + ∑ jj : Fin 1024, chunkExp (k0_pay4 (F := Ideal) v5 v6 v8) v14 r jj)
        + ∑ jj : Fin 1024, chunkExp (k0_pay4 (F := Ideal) v5 v6 v8) v24 r jj := by
  unfold k0_pay8
  refine congrArg₂ (· + ·) (congrArg₂ (· + ·) Ideal.ofBits_zero_f32 ?_) ?_
  · exact (rowSum_apply _ _ _ _ _ r).trans (Finset.sum_congr rfl fun jj _ => pay5_apply v5 v6 v8 v14 r jj)
  · exact (rowSum_apply _ _ _ _ _ r).trans (Finset.sum_congr rfl fun jj _ => pay7_apply v5 v6 v8 v24 r jj)
/-- … after chunks 2, 3 and 4 over what came before, … -/
theorem pay15_apply (v12 : FVec Ideal S512x64 .bf16) (v29 : FVec Ideal S512x1 .f32) (v34 v44 v54 : FVec Ideal S64x1024 .bf16)
    (r : Fin 512) :
    k0_pay15 (F := Ideal) v12 v29 v34 v44 v54 (ix2 r 0)
      = ((v29 (ix2 r 0) + ∑ jj : Fin 1024, chunkExp v12 v34 r jj) + ∑ jj : Fin 1024, chunkExp v12 v44 r jj)
        + ∑ jj : Fin 1024, chunkExp v12 v54 r jj := by
  unfold k0_pay15
  refine congrArg₂ (· + ·) (congrArg₂ (· + ·) (congrArg₂ (· + ·) rfl ?_) ?_) ?_
  · exact (rowSum_apply _ _ _ _ _ r).trans (Finset.sum_congr rfl fun jj _ => pay10_apply v12 v34 r jj)
  · exact (rowSum_apply _ _ _ _ _ r).trans (Finset.sum_congr rfl fun jj _ => pay12_apply v12 v44 r jj)
  · exact (rowSum_apply _ _ _ _ _ r).trans (Finset.sum_congr rfl fun jj _ => pay14_apply v12 v54 r jj)
/-- … and chunk 5's own row sums. -/
theorem pay18_apply (v12 : FVec Ideal S512x64 .bf16) (v64 : FVec Ideal S64x1024 .bf16) (r : Fin 512) :
    k0_pay18 (F := Ideal) v12 v64 (ix2 r 0) = ∑ jj : Fin 1024, chunkExp v12 v64 r jj := by
  unfold k0_pay18
  exact (rowSum_apply _ _ _ _ _ r).trans (Finset.sum_congr rfl fun jj _ => pay17_apply v12 v64 r jj)

/-- The point's contribution: the belief block `v97` divided by the finished row sums (chunks 6 and 7 added to what
    came before), times the stored exponentials `v103`, contracted over the block's 512 rows. -/
theorem pay25_apply (v12 : FVec Ideal S512x64 .bf16) (v59 v68 : FVec Ideal S512x1 .f32) (v74 v84 : FVec Ideal S64x1024 .bf16)
    (v97 : FVec Ideal S16x512 .f32) (v103 : FVec Ideal S512x8192 .bf16) (b : Fin 16) (j : Fin 8192) :
    k0_pay25 (F := Ideal) v12 v59 v68 v74 v84 v97 v103 (ix2 b j)
      = ∑ r : Fin 512, Ideal.div (v97 (ix2 b r))
          (((v59 (ix2 r 0) + v68 (ix2 r 0)) + ∑ jj : Fin 1024, chunkExp v12 v74 r jj) + ∑ jj : Fin 1024, chunkExp v12 v84 r jj)
          * v103 (ix2 r j) := by
  unfold k0_pay25
  refine (matmulD_apply _ v103 b j).trans (Finset.sum_congr rfl fun r _ => congrArg (· * v103 (ix2 r j)) ?_)
  refine congrArg (Ideal.div (v97 (ix2 b r))) ?_
  refine (broadcastTo_1b_ab_apply _ _ b r).trans ((transpose_ix2_apply _ _ (0 : Fin 1) r).trans ?_)
  refine congrArg₂ (· + ·) (congrArg₂ (· + ·) rfl ?_) ?_
  · exact (rowSum_apply _ _ _ _ _ r).trans (Finset.sum_congr rfl fun jj _ => pay20_apply v12 v74 r jj)
  · exact (rowSum_apply _ _ _ _ _ r).trans (Finset.sum_congr rfl fun jj _ => pay22_apply v12 v84 r jj)

/-- The final sum, the read-back block, and the zero the first point stores. -/
theorem pay1_apply (v102 v104 : FVec Ideal S16x8192 .f32) (i : S16x8192.Idx) :
    k0_pay1 (F := Ideal) v102 v104 i = v102 i + v104 i := rfl
theorem pay24_apply (v101 : FVec Ideal S16x8192 .f32) (i : S16x8192.Idx) : k0_pay24 (F := Ideal) v101 i = v101 i :=
  congrFun (shapeCast_self v101 _) i
theorem pay3_apply (i : S16x8192.Idx) : k0_pay3 (F := Ideal) i = 0 := Ideal.ofBits_zero_f32

end Cert.KernelIdeal.KPay

end
-- ==== Proof.LibBlockSum.lean ====
/-
  Sums by blocks, in a commutative additive monoid (the extended reals are one).

  A sum over `a * b` consecutive indices is the sum over `a` blocks of the sums over each block's
  `b` indices, the index of block `t` at offset `y` being `b * t + y` (`sum_blocks`; the instance
  at 25 blocks of 2000, stated at the literal 50000, is `sum_blocks_50000`). An accumulator that
  starts as `0 + s 0` and adds `s (n + 1)` at each step holds, after step `n`, the sum of
  `s 0, …, s n` (`acc_eq_sum`; over a finite run of steps, `acc_eq_sum_fin`).
-/
import Mathlib.Algebra.BigOperators.Fin
import Mathlib.Algebra.BigOperators.Group.Finset.Basic
import Mathlib.Data.Fintype.BigOperators
import Mathlib.Logic.Equiv.Fin.Basic
import Mathlib.Tactic.Ring

open scoped BigOperators

namespace Cert.Lib.BlockSum

/-- The index of block `t` at offset `y`, among `a` blocks of `b`, is below `a * b`. -/
theorem block_lt {a b : ℕ} (t : Fin a) (y : Fin b) : b * t.val + y.val < a * b :=
  calc b * t.val + y.val < b * t.val + b := Nat.add_lt_add_left y.isLt _
    _ = b * (t.val + 1) := (Nat.mul_succ b t.val).symm
    _ ≤ b * a := Nat.mul_le_mul_left b t.isLt
    _ = a * b := Nat.mul_comm b a

/-- A sum over `a * b` indices is the sum over `a` blocks of the sums over each block's `b`
    indices; block `t` at offset `y` is the index `b * t + y`. -/
theorem sum_blocks {M : Type*} [AddCommMonoid M] (a b : ℕ) (f : Fin (a * b) → M) :
    ∑ t : Fin a, ∑ y : Fin b, f ⟨b * t.val + y.val, block_lt t y⟩ = ∑ r : Fin (a * b), f r := by
  have h := (finProdFinEquiv (m := a) (n := b)).sum_comp f
  rw [← h, Fintype.sum_prod_type]
  refine Finset.sum_congr rfl fun t _ => Finset.sum_congr rfl fun y _ => ?_
  congr 1
  apply Fin.ext
  simp only [finProdFinEquiv_apply_val]
  exact Nat.add_comm _ _

/-- A sum over 50000 indices is the sum over 25 blocks of 2000; block `t` at offset `y` is the
    index `2000 * t + y`. -/
theorem sum_blocks_50000 {M : Type*} [AddCommMonoid M] (f : Fin 50000 → M) :
    ∑ t : Fin 25, ∑ y : Fin 2000, f ⟨2000 * t.val + y.val, by omega⟩ = ∑ r : Fin 50000, f r :=
  sum_blocks 25 2000 f

/-- An accumulator that starts as `0 + s 0` and adds `s (n + 1)` at step `n + 1` holds after step
    `n` the sum of `s 0, …, s n`. -/
theorem acc_eq_sum {M : Type*} [AddCommMonoid M] (s : ℕ → M) (S : ℕ → M) (h0 : S 0 = 0 + s 0)
    (hs : ∀ n, S (n + 1) = S n + s (n + 1)) (n : ℕ) : S n = ∑ t ∈ Finset.range (n + 1), s t := by
  induction n with
  | zero => rw [h0, zero_add, Finset.sum_range_one]
  | succ n ih => rw [hs, ih, Finset.sum_range_succ _ (n + 1)]

/-- The same over a finite run of `N + 1` steps: the accumulator's last value is the sum of all
    the steps' terms. -/
theorem acc_eq_sum_fin {M : Type*} [AddCommMonoid M] (N : ℕ) (s : Fin (N + 1) → M)
    (S : Fin (N + 1) → M) (h0 : S 0 = 0 + s 0)
    (hs : ∀ (n : ℕ) (h : n + 1 < N + 1), S ⟨n + 1, h⟩ = S ⟨n, by omega⟩ + s ⟨n + 1, h⟩) :
    S (Fin.last N) = ∑ t : Fin (N + 1), s t := by
  have key : ∀ (n : ℕ) (h : n < N + 1),
      S ⟨n, h⟩ = ∑ t ∈ Finset.range (n + 1), (if h' : t < N + 1 then s ⟨t, h'⟩ else 0) := by
    intro n
    induction n with
    | zero =>
      intro h
      rw [Finset.sum_range_one, dif_pos h]
      rw [zero_add] at h0
      exact h0
    | succ n ih =>
      intro h
      rw [hs n h, ih (by omega), Finset.sum_range_succ _ (n + 1), dif_pos h]
  have hN := key N (Nat.lt_succ_self N)
  have hr := Fin.sum_univ_eq_sum_range (fun t => if h' : t < N + 1 then s ⟨t, h'⟩ else 0) (N + 1)
  rw [show Fin.last N = ⟨N, Nat.lt_succ_self N⟩ from rfl, hN, ← hr]
  refine Finset.sum_congr rfl fun t _ => ?_
  rw [dif_pos t.isLt]

end Cert.Lib.BlockSum
-- ==== Proof.KBody.lean ====
/-
  What one run of the kernel body leaves behind, read at an index.

  The body runs in one of two cases. At the first grid point it first stores the key features
  `K.ktOf` into the scratch buffer it keeps and zeroes the output block; at every point it then adds
  that point's contribution `K.stepAt` to the output block, reading the key features back from the
  scratch buffer. So the first point leaves `0 + step` over the key features it has just stored, and
  every later point leaves what the point before left plus `step` over the kept key features.
-/
import proofs.«121411_g5935644803188_cont_9to1c4b_610_11_alg».proof.Proof.Gen.KernelIdeal.Frame
import proofs.«121411_g5935644803188_cont_9to1c4b_610_11_alg».proof.Proof.KDefs
import proofs.«121411_g5935644803188_cont_9to1c4b_610_11_alg».proof.Proof.KPay
import proofs.«121411_g5935644803188_cont_9to1c4b_610_11_alg».proof.Proof.LibBlockSum

set_option maxRecDepth 16384

noncomputable section

namespace Cert.KernelIdeal.KBody

open Idealize.ShloMosaic Idealize.ShloMosaic.ValueIdx Idealize.ShloMosaic.TcCoe Idealize.SL.Sem
open Idealize.ShloMosaic.Tactic
open Cert.KernelIdeal Cert.KernelIdeal.Gen Cert.KernelIdeal.K
open scoped BigOperators

/-- A grid point as a number below sixteen. -/
def pt (t : Fin cfg0.N) : Fin 16 := ⟨t.val, lt_of_lt_of_eq t.isLt N_0⟩

/-- The zero offsets of a whole-block rectangle, as the constant function. -/
theorem hz : (![0, 0] : Fin 2 → ℕ) = fun _ => 0 := by
  funext a; fin_cases a <;> rfl

/-! ## Reads through a rectangle, at an index -/

/-- A unit-stride rectangle of a rank-2 shape places the index `(r, d)` at `(off 0 + r, off 1 + d)`. -/
theorem unit_idx_ix2 {m n m' n' : ℕ} (off : Fin 2 → ℕ)
    (inb : ∀ a, off a + (![m', n'] : Fin 2 → ℕ) a ≤ (⟨2, ![m, n]⟩ : Shape).size a)
    (r : Fin m') (d : Fin n') (r' : Fin m) (d' : Fin n) (h0 : off 0 + r.val = r'.val) (h1 : off 1 + d.val = d'.val) :
    (Rect.unit (s := ⟨2, ![m, n]⟩) off ![m', n'] inb).idx (ix2 r d) = ix2 r' d' :=
  Shape.idx_ext₂ (by show off 0 + 1 * r.val = r'.val; omega) (by show off 1 + 1 * d.val = d'.val; omega)

/-- The grid has one axis, and a point's coordinate on it is the point's number. -/
theorem coords_val : ∀ t : Fin cfg0.N, ((grid0.coords t) 0).val = t.val :=
  (by decide +kernel : ∀ t : Fin grid0.N, ((grid0.coords t) 0).val = t.val)

/-- Point `t` loads the embedding rows from `512 · t` on, -/
theorem off1_eq (t : Fin cfg0.N) : k0_off1 (grid0.coords t) = ![512 * t.val, 0] := by
  rw [k0_off1_eq, coords_val]

/-- and the belief columns from `512 · t` on. -/
theorem off2_eq (t : Fin cfg0.N) : k0_off2 (grid0.coords t) = ![0, 512 * t.val] := by
  rw [k0_off2_eq, coords_val]

/-- The embedding block point `t` loads reads, at `(r, d)`, row `512 · t + r` of the embedding. -/
theorem ld_rows (x1 : FVec Ideal S8192x128 .f32) (t : Fin cfg0.N)
    (inb : ∀ a, (k0_off1 (grid0.coords t)) a + S512x128.size a ≤ S8192x128.size a) (r : Fin 512) (d : Fin 128) :
    x1 ((Rect.unit (s := S8192x128) (k0_off1 (grid0.coords t)) S512x128.size inb).idx (ix2 r d))
      = x1 (ix2 (row (pt t) r) d) :=
  congrArg x1 (unit_idx_ix2 _ inb r d (row (pt t) r) d (by rw [off1_eq]; rfl) (by rw [off1_eq]; exact Nat.zero_add _))

/-- The belief block point `t` loads reads, at `(b, r)`, column `512 · t + r` of the belief. -/
theorem ld_cols (x0 : FVec Ideal S16x8192 .f32) (t : Fin cfg0.N)
    (inb : ∀ a, (k0_off2 (grid0.coords t)) a + S16x512.size a ≤ S16x8192.size a) (b : Fin 16) (r : Fin 512) :
    x0 ((Rect.unit (s := S16x8192) (k0_off2 (grid0.coords t)) S16x512.size inb).idx (ix2 b r))
      = x0 (ix2 b (row (pt t) r)) :=
  congrArg x0 (unit_idx_ix2 _ inb b r b (row (pt t) r) (by rw [off2_eq]; exact Nat.zero_add _) (by rw [off2_eq]; rfl))

/-- Column chunk `c` of the key features reads, at `(h, jj)`, column `1024 · c + jj`. -/
theorem ld_chunk (kt : FVec Ideal S64x8192 .bf16) (c : Fin 8) {off : Fin 2 → ℕ} (hoff0 : off 0 = 0)
    (hoff1 : off 1 = 1024 * c.val) (inb : ∀ a, off a + S64x1024.size a ≤ S64x8192.size a) (h : Fin 64) (jj : Fin 1024) :
    kt ((Rect.unit (s := S64x8192) off S64x1024.size inb).idx (ix2 h jj)) = kt (ix2 h (col c jj)) :=
  congrArg kt (unit_idx_ix2 _ inb h jj h (col c jj) (by rw [hoff0]; exact Nat.zero_add _) (by rw [hoff1]; rfl))

/-- The rectangle of exponential chunk `c` places `(r, jj)` at `(r, 1024 · c + jj)`. -/
theorem emb_chunk (c : Fin 8) {off : Fin 2 → ℕ} (hoff0 : off 0 = 0) (hoff1 : off 1 = 1024 * c.val)
    (inb : ∀ a, off a + S512x1024.size a ≤ S512x8192.size a) (r : Fin 512) (jj : Fin 1024) :
    (Rect.unit (s := S512x8192) off S512x1024.size inb).emb (ix2 r jj) = ix2 r (col c jj) :=
  unit_idx_ix2 _ inb r jj r (col c jj) (by rw [hoff0]; exact Nat.zero_add _) (by rw [hoff1]; rfl)

/-! ## The arithmetic of one point, over plain arrays -/

/-- A sum over the 8192 columns is the sum over the eight chunks of the sums over each chunk's 1024 columns. -/
theorem sum_chunks (f : Fin 8192 → EReal) : ∑ j : Fin 8192, f j = ∑ c : Fin 8, ∑ jj : Fin 1024, f (col c jj) :=
  (Cert.Lib.BlockSum.sum_blocks 8 1024 f).symm

/-- Every column is a column of one chunk. -/
theorem exists_col (j : Fin 8192) : ∃ (c : Fin 8) (jj : Fin 1024), j = col c jj :=
  ⟨⟨j.val / 1024, by omega⟩, ⟨j.val % 1024, Nat.mod_lt _ (by norm_num)⟩, Fin.ext (by simp only [col]; omega)⟩

/-- One chunk's exponential, over query features that are those of the point's rows and a key chunk that is
    chunk `c` of the key features `kt`, is the exponential of the logit at the chunk's column. -/
theorem chunkExp_eq (x1 : FVec Ideal S8192x128 .f32) (x2 : FVec Ideal S64x128 .f32) (x3 : FVec Ideal S1x64 .f32)
    (kt : FVec Ideal S64x8192 .bf16) (t : Fin 16) (q : FVec Ideal S512x64 .bf16)
    (hq : ∀ r h, q (ix2 r h) = qAt x1 x2 x3 (row t r) h) (c : Fin 8) (K : FVec Ideal S64x1024 .bf16)
    (hK : ∀ h jj, K (ix2 h jj) = kt (ix2 h (col c jj))) (r : Fin 512) (jj : Fin 1024) :
    KPay.chunkExp q K r jj = Ideal.exp (lgAt x1 x2 x3 kt (row t r) (col c jj)) := by
  unfold KPay.chunkExp lgAt
  exact congrArg Ideal.exp (Finset.sum_congr rfl fun h _ => by rw [hq, hK])

/-- THE POINT'S CONTRIBUTION. With the loaded blocks as variables and what each reads at an index as hypotheses:
    `v5` the point's 512 embedding rows, `K0 … K7` the eight column chunks of the key features `kt`, `v97` the
    point's 512 belief columns, `v103` the stored exponentials of the point's logits. The row sums accumulate
    chunk by chunk to the sum over all 8192 columns, so the term is `stepAt`. -/
theorem step_core (x0 : FVec Ideal S16x8192 .f32) (x1 : FVec Ideal S8192x128 .f32) (x2 : FVec Ideal S64x128 .f32)
    (x3 : FVec Ideal S1x64 .f32) (kt : FVec Ideal S64x8192 .bf16) (t : Fin 16)
    (v5 : FVec Ideal S512x128 .f32) (h5 : ∀ r d, v5 (ix2 r d) = x1 (ix2 (row t r) d))
    (K0 K1 K2 K3 K4 K5 K6 K7 : FVec Ideal S64x1024 .bf16)
    (hK0 : ∀ h jj, K0 (ix2 h jj) = kt (ix2 h (col 0 jj))) (hK1 : ∀ h jj, K1 (ix2 h jj) = kt (ix2 h (col 1 jj)))
    (hK2 : ∀ h jj, K2 (ix2 h jj) = kt (ix2 h (col 2 jj))) (hK3 : ∀ h jj, K3 (ix2 h jj) = kt (ix2 h (col 3 jj)))
    (hK4 : ∀ h jj, K4 (ix2 h jj) = kt (ix2 h (col 4 jj))) (hK5 : ∀ h jj, K5 (ix2 h jj) = kt (ix2 h (col 5 jj)))
    (hK6 : ∀ h jj, K6 (ix2 h jj) = kt (ix2 h (col 6 jj))) (hK7 : ∀ h jj, K7 (ix2 h jj) = kt (ix2 h (col 7 jj)))
    (v97 : FVec Ideal S16x512 .f32) (h97 : ∀ b r, v97 (ix2 b r) = x0 (ix2 b (row t r)))
    (v103 : FVec Ideal S512x8192 .bf16)
    (h103 : ∀ r j, v103 (ix2 r j) = Ideal.exp (lgAt x1 x2 x3 kt (row t r) j))
    (b : Fin 16) (j : Fin 8192) :
    k0_pay25 (F := Ideal) (k0_pay4 (F := Ideal) v5 x2 x3)
        (k0_pay15 (F := Ideal) (k0_pay4 (F := Ideal) v5 x2 x3) (k0_pay8 (F := Ideal) v5 x2 x3 K0 K1) K2 K3 K4)
        (k0_pay18 (F := Ideal) (k0_pay4 (F := Ideal) v5 x2 x3) K5) K6 K7 v97 v103 (ix2 b j)
      = stepAt x0 x1 x2 x3 kt t b j := by
  have hq : ∀ r h, k0_pay4 (F := Ideal) v5 x2 x3 (ix2 r h) = qAt x1 x2 x3 (row t r) h := by
    intro r h
    rw [KPay.pay4_apply]
    unfold qAt
    simp only [h5]
  have hS : ∀ (c : Fin 8) (K : FVec Ideal S64x1024 .bf16), (∀ h jj, K (ix2 h jj) = kt (ix2 h (col c jj))) → ∀ r : Fin 512,
      ∑ jj : Fin 1024, KPay.chunkExp (k0_pay4 (F := Ideal) v5 x2 x3) K r jj
        = ∑ jj : Fin 1024, Ideal.exp (lgAt x1 x2 x3 kt (row t r) (col c jj)) :=
    fun c K hK r => Finset.sum_congr rfl fun jj _ => chunkExp_eq x1 x2 x3 kt t _ hq c K hK r jj
  rw [KPay.pay25_apply]
  unfold stepAt
  refine Finset.sum_congr rfl fun r _ => ?_
  rw [h97, h103, KPay.pay15_apply, KPay.pay8_apply, KPay.pay18_apply,
    hS 0 K0 hK0, hS 1 K1 hK1, hS 2 K2 hK2, hS 3 K3 hK3, hS 4 K4 hK4, hS 5 K5 hK5, hS 6 K6 hK6, hS 7 K7 hK7]
  have hZ : zAt x1 x2 x3 kt (row t r)
      = ((((((0 + ∑ jj : Fin 1024, Ideal.exp (lgAt x1 x2 x3 kt (row t r) (col 0 jj)))
          + ∑ jj : Fin 1024, Ideal.exp (lgAt x1 x2 x3 kt (row t r) (col 1 jj)))
          + ∑ jj : Fin 1024, Ideal.exp (lgAt x1 x2 x3 kt (row t r) (col 2 jj)))
          + ∑ jj : Fin 1024, Ideal.exp (lgAt x1 x2 x3 kt (row t r) (col 3 jj)))
          + ∑ jj : Fin 1024, Ideal.exp (lgAt x1 x2 x3 kt (row t r) (col 4 jj))
          + ∑ jj : Fin 1024, Ideal.exp (lgAt x1 x2 x3 kt (row t r) (col 5 jj)))
          + ∑ jj : Fin 1024, Ideal.exp (lgAt x1 x2 x3 kt (row t r) (col 6 jj)))
          + ∑ jj : Fin 1024, Ideal.exp (lgAt x1 x2 x3 kt (row t r) (col 7 jj)) := by
    unfold zAt
    rw [sum_chunks, Fin.sum_univ_eight, zero_add]
  rw [hZ]

/-- The whole-block rectangle of the stored exponentials places every index at itself. -/
theorem idx_whole (inb : ∀ a, (![0, 0] : Fin 2 → ℕ) a + S512x8192.size a ≤ S512x8192.size a) (r : Fin 512) (j : Fin 8192) :
    (Rect.unit (s := S512x8192) ![0, 0] S512x8192.size inb).idx (ix2 r j) = ix2 r j :=
  unit_idx_ix2 _ inb r j r j (Nat.zero_add _) (Nat.zero_add _)

/-- The eight stored chunks read back at `(r, j)`: if chunk `c`'s payload at `(r, jj)` is `E r (1024 · c + jj)` for one
    function `E` of the row and the column, then what the eight stores leave is `E` everywhere (the chunks tile the
    8192 columns). -/
theorem canon_chunks (E : Fin 512 → Fin 8192 → EReal) (w0 w1 w2 w3 w4 w5 w6 w7 : FVec Ideal S512x1024 .bf16)
    (hw0 : ∀ r jj, w0 (ix2 r jj) = E r (col 0 jj))
    (hw1 : ∀ r jj, w1 (ix2 r jj) = E r (col 1 jj))
    (hw2 : ∀ r jj, w2 (ix2 r jj) = E r (col 2 jj))
    (hw3 : ∀ r jj, w3 (ix2 r jj) = E r (col 3 jj))
    (hw4 : ∀ r jj, w4 (ix2 r jj) = E r (col 4 jj))
    (hw5 : ∀ r jj, w5 (ix2 r jj) = E r (col 5 jj))
    (hw6 : ∀ r jj, w6 (ix2 r jj) = E r (col 6 jj))
    (hw7 : ∀ r jj, w7 (ix2 r jj) = E r (col 7 jj))
    (r : Fin 512) (j : Fin 8192) :
    View.canon (Val := Elt Ideal) (s := S512x8192) (e := EltTy.bf16)
      [⟨Rect.unit (s := S512x8192) ![0, 7168] S512x1024.size inb_S512x8192_S512x1024_0_7168, w7⟩,
       ⟨Rect.unit (s := S512x8192) ![0, 6144] S512x1024.size inb_S512x8192_S512x1024_0_6144, w6⟩,
       ⟨Rect.unit (s := S512x8192) ![0, 5120] S512x1024.size inb_S512x8192_S512x1024_0_5120, w5⟩,
       ⟨Rect.unit (s := S512x8192) ![0, 4096] S512x1024.size inb_S512x8192_S512x1024_0_4096, w4⟩,
       ⟨Rect.unit (s := S512x8192) ![0, 3072] S512x1024.size inb_S512x8192_S512x1024_0_3072, w3⟩,
       ⟨Rect.unit (s := S512x8192) ![0, 2048] S512x1024.size inb_S512x8192_S512x1024_0_2048, w2⟩,
       ⟨Rect.unit (s := S512x8192) ![0, 1024] S512x1024.size inb_S512x8192_S512x1024_0_1024, w1⟩,
       ⟨Rect.unit (s := S512x8192) ![0, 0] S512x1024.size inb_S512x8192_S512x1024_0_0, w0⟩] (ix2 r j) = E r j := by
  refine View.canon_apply_of_pieces (Val := Elt Ideal) (S := S512x8192) (e := EltTy.bf16) (fun y => E (y 0) (y 1)) _ ?_ (ix2 r j) ?_
  · intro p hp
    simp only [List.mem_cons, List.not_mem_nil, or_false] at hp
    rcases hp with rfl | rfl | rfl | rfl | rfl | rfl | rfl | rfl
    all_goals intro x
    all_goals obtain ⟨r', jj, rfl⟩ : ∃ (r' : Fin 512) (jj : Fin 1024), x = ix2 r' jj := ⟨x 0, x 1, eq_ix2 x⟩
    all_goals dsimp only
    · rw [emb_chunk 7 rfl rfl]; exact hw7 r' jj
    · rw [emb_chunk 6 rfl rfl]; exact hw6 r' jj
    · rw [emb_chunk 5 rfl rfl]; exact hw5 r' jj
    · rw [emb_chunk 4 rfl rfl]; exact hw4 r' jj
    · rw [emb_chunk 3 rfl rfl]; exact hw3 r' jj
    · rw [emb_chunk 2 rfl rfl]; exact hw2 r' jj
    · rw [emb_chunk 1 rfl rfl]; exact hw1 r' jj
    · rw [emb_chunk 0 rfl rfl]; exact hw0 r' jj
  · obtain ⟨c, jj, rfl⟩ := exists_col j
    have hm : ∀ (c : Fin 8) {off : Fin 2 → ℕ} (h0 : off 0 = 0) (h1 : off 1 = 1024 * c.val)
        (inb : ∀ a, off a + S512x1024.size a ≤ S512x8192.size a),
        ix2 r (col c jj) ∈ (Rect.unit (s := S512x8192) off S512x1024.size inb).set :=
      fun c off h0 h1 inb => by rw [← emb_chunk c h0 h1 inb r jj]; exact LoadRect.idx_mem _ _
    fin_cases c
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), hm 0 (off := ![0, 0]) rfl rfl inb_S512x8192_S512x1024_0_0⟩
    · exact ⟨_, (List.mem_cons_of_mem _ (List.mem_cons_of_mem _ (List.mem_cons_of_mem _ (List.mem_cons_of_mem _ (List.mem_cons_of_mem _ (List.mem_cons_of_mem _ List.mem_cons_self)))))), hm 1 (off := ![0, 1024]) rfl rfl inb_S512x8192_S512x1024_0_1024⟩
    · exact ⟨_, (List.mem_cons_of_mem _ (List.mem_cons_of_mem _ (List.mem_cons_of_mem _ (List.mem_cons_of_mem _ (List.mem_cons_of_mem _ List.mem_cons_self))))), hm 2 (off := ![0, 2048]) rfl rfl inb_S512x8192_S512x1024_0_2048⟩
    · exact ⟨_, (List.mem_cons_of_mem _ (List.mem_cons_of_mem _ (List.mem_cons_of_mem _ (List.mem_cons_of_mem _ List.mem_cons_self)))), hm 3 (off := ![0, 3072]) rfl rfl inb_S512x8192_S512x1024_0_3072⟩
    · exact ⟨_, (List.mem_cons_of_mem _ (List.mem_cons_of_mem _ (List.mem_cons_of_mem _ List.mem_cons_self))), hm 4 (off := ![0, 4096]) rfl rfl inb_S512x8192_S512x1024_0_4096⟩
    · exact ⟨_, (List.mem_cons_of_mem _ (List.mem_cons_of_mem _ List.mem_cons_self)), hm 5 (off := ![0, 5120]) rfl rfl inb_S512x8192_S512x1024_0_5120⟩
    · exact ⟨_, (List.mem_cons_of_mem _ List.mem_cons_self), hm 6 (off := ![0, 6144]) rfl rfl inb_S512x8192_S512x1024_0_6144⟩
    · exact ⟨_, List.mem_cons_self, hm 7 (off := ![0, 7168]) rfl rfl inb_S512x8192_S512x1024_0_7168⟩

/-- The query features of the point's block of rows, at an index. -/
theorem pay4_rows (x1 : FVec Ideal S8192x128 .f32) (x2 : FVec Ideal S64x128 .f32) (x3 : FVec Ideal S1x64 .f32) (t : Fin 16)
    (v5 : FVec Ideal S512x128 .f32) (h5 : ∀ r d, v5 (ix2 r d) = x1 (ix2 (row t r) d)) (r : Fin 512) (h : Fin 64) :
    k0_pay4 (F := Ideal) v5 x2 x3 (ix2 r h) = qAt x1 x2 x3 (row t r) h := by
  rw [KPay.pay4_apply]
  unfold qAt
  simp only [h5]

/-- The point's contribution with the stored exponentials as the run finds them: the eight chunk stores read back
    whole. -/
theorem step_core2 (x0 : FVec Ideal S16x8192 .f32) (x1 : FVec Ideal S8192x128 .f32) (x2 : FVec Ideal S64x128 .f32)
    (x3 : FVec Ideal S1x64 .f32) (kt : FVec Ideal S64x8192 .bf16) (t : Fin 16)
    (v5 : FVec Ideal S512x128 .f32) (h5 : ∀ r d, v5 (ix2 r d) = x1 (ix2 (row t r) d))
    (K0 K1 K2 K3 K4 K5 K6 K7 : FVec Ideal S64x1024 .bf16)
    (hK0 : ∀ h jj, K0 (ix2 h jj) = kt (ix2 h (col 0 jj)))
    (hK1 : ∀ h jj, K1 (ix2 h jj) = kt (ix2 h (col 1 jj)))
    (hK2 : ∀ h jj, K2 (ix2 h jj) = kt (ix2 h (col 2 jj)))
    (hK3 : ∀ h jj, K3 (ix2 h jj) = kt (ix2 h (col 3 jj)))
    (hK4 : ∀ h jj, K4 (ix2 h jj) = kt (ix2 h (col 4 jj)))
    (hK5 : ∀ h jj, K5 (ix2 h jj) = kt (ix2 h (col 5 jj)))
    (hK6 : ∀ h jj, K6 (ix2 h jj) = kt (ix2 h (col 6 jj)))
    (hK7 : ∀ h jj, K7 (ix2 h jj) = kt (ix2 h (col 7 jj)))
    (v97 : FVec Ideal S16x512 .f32) (h97 : ∀ b r, v97 (ix2 b r) = x0 (ix2 b (row t r)))
    (b : Fin 16) (j : Fin 8192) :
    k0_pay25 (F := Ideal) (k0_pay4 (F := Ideal) v5 x2 x3)
        (k0_pay15 (F := Ideal) (k0_pay4 (F := Ideal) v5 x2 x3) (k0_pay8 (F := Ideal) v5 x2 x3 K0 K1) K2 K3 K4)
        (k0_pay18 (F := Ideal) (k0_pay4 (F := Ideal) v5 x2 x3) K5) K6 K7 v97
        (fun y => View.canon (Val := Elt Ideal) (s := S512x8192) (e := EltTy.bf16)
          [⟨Rect.unit (s := S512x8192) ![0, 7168] S512x1024.size inb_S512x8192_S512x1024_0_7168, k0_pay23 (F := Ideal) (k0_pay4 (F := Ideal) v5 x2 x3) K7⟩,
           ⟨Rect.unit (s := S512x8192) ![0, 6144] S512x1024.size inb_S512x8192_S512x1024_0_6144, k0_pay21 (F := Ideal) (k0_pay4 (F := Ideal) v5 x2 x3) K6⟩,
           ⟨Rect.unit (s := S512x8192) ![0, 5120] S512x1024.size inb_S512x8192_S512x1024_0_5120, k0_pay19 (F := Ideal) (k0_pay17 (F := Ideal) (k0_pay4 (F := Ideal) v5 x2 x3) K5)⟩,
           ⟨Rect.unit (s := S512x8192) ![0, 4096] S512x1024.size inb_S512x8192_S512x1024_0_4096, k0_pay16 (F := Ideal) (k0_pay4 (F := Ideal) v5 x2 x3) K4⟩,
           ⟨Rect.unit (s := S512x8192) ![0, 3072] S512x1024.size inb_S512x8192_S512x1024_0_3072, k0_pay13 (F := Ideal) (k0_pay4 (F := Ideal) v5 x2 x3) K3⟩,
           ⟨Rect.unit (s := S512x8192) ![0, 2048] S512x1024.size inb_S512x8192_S512x1024_0_2048, k0_pay11 (F := Ideal) (k0_pay4 (F := Ideal) v5 x2 x3) K2⟩,
           ⟨Rect.unit (s := S512x8192) ![0, 1024] S512x1024.size inb_S512x8192_S512x1024_0_1024, k0_pay9 (F := Ideal) v5 x2 x3 K1⟩,
           ⟨Rect.unit (s := S512x8192) ![0, 0] S512x1024.size inb_S512x8192_S512x1024_0_0, k0_pay6 (F := Ideal) v5 x2 x3 K0⟩]
          ((Rect.unit (s := S512x8192) ![0, 0] S512x8192.size inb_S512x8192_S512x8192_0_0).idx y)) (ix2 b j)
      = stepAt x0 x1 x2 x3 kt t b j := by
  have hq := pay4_rows x1 x2 x3 t v5 h5
  refine step_core x0 x1 x2 x3 kt t v5 h5 K0 K1 K2 K3 K4 K5 K6 K7 hK0 hK1 hK2 hK3 hK4 hK5 hK6 hK7 v97 h97 _ ?_ b j
  intro r j
  show View.canon _ ((Rect.unit (s := S512x8192) ![0, 0] S512x8192.size inb_S512x8192_S512x8192_0_0).idx (ix2 r j)) = _
  rw [idx_whole]
  exact canon_chunks (fun r j => Ideal.exp (lgAt x1 x2 x3 kt (row t r) j)) _ _ _ _ _ _ _ _
    (fun r jj => by rw [KPay.pay6_apply, KPay.pay5_apply]; exact chunkExp_eq x1 x2 x3 kt t _ hq 0 K0 hK0 r jj)
    (fun r jj => by rw [KPay.pay9_apply, KPay.pay7_apply]; exact chunkExp_eq x1 x2 x3 kt t _ hq 1 K1 hK1 r jj)
    (fun r jj => by rw [KPay.pay11_apply, KPay.pay10_apply]; exact chunkExp_eq x1 x2 x3 kt t _ hq 2 K2 hK2 r jj)
    (fun r jj => by rw [KPay.pay13_apply, KPay.pay12_apply]; exact chunkExp_eq x1 x2 x3 kt t _ hq 3 K3 hK3 r jj)
    (fun r jj => by rw [KPay.pay16_apply, KPay.pay14_apply]; exact chunkExp_eq x1 x2 x3 kt t _ hq 4 K4 hK4 r jj)
    (fun r jj => by rw [KPay.pay19_apply, KPay.pay17_apply]; exact chunkExp_eq x1 x2 x3 kt t _ hq 5 K5 hK5 r jj)
    (fun r jj => by rw [KPay.pay21_apply, KPay.pay20_apply]; exact chunkExp_eq x1 x2 x3 kt t _ hq 6 K6 hK6 r jj)
    (fun r jj => by rw [KPay.pay23_apply, KPay.pay22_apply]; exact chunkExp_eq x1 x2 x3 kt t _ hq 7 K7 hK7 r jj)
    r j

/-- The first point's case stores the key features into the scratch buffer it keeps. -/
theorem soutA_eq (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (hc0 : cond0_0 i)
    (x0 : Vec Ideal S16x8192 .f32) (x1 : Vec Ideal S8192x128 .f32) (x2 : Vec Ideal S64x128 .f32) (x3 : Vec Ideal S1x64 .f32) (x4 : Vec Ideal S64x128 .f32) (x5 : Vec Ideal S64x1 .f32) :
    sout0_A_0 (F := Ideal) c i arg1 harg1 arg2 harg2 arg3 harg3 arg4 harg4 arg5 harg5 arg6 harg6 arg7 harg7 arg8 harg8 arg9 harg9 hc0 x0 x1 x2 x3 x4 x5 = ktOf x4 x1 x5 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5)]
  unfold kernelRun0_A; dsimp only; sl_unfold_run_names
  rw [View.canon_unit_zero hz]
  simp only [View.readAt_eq_ld, Memref.IsWhole.read_unread, View.ld_unit_zero (S := S64x128) hz, View.ld_unit_zero (S := S8192x128) hz, View.ld_unit_zero (S := S64x1) hz, View.ld_unit_zero (S := S1x64) hz, View.ld_unit_zero (S := S16x8192) hz]
  exact KPay.pay2_eq x4 x1 x5

/-- The first point's case leaves, in the output block, zero plus its contribution over the key features it stored. -/
theorem outA_apply (c : Dev nD) (t : Fin cfg0.N) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (hc0 : cond0_0 (grid0.coords t))
    (x0 : Vec Ideal S16x8192 .f32) (x1 : Vec Ideal S8192x128 .f32) (x2 : Vec Ideal S64x128 .f32) (x3 : Vec Ideal S1x64 .f32) (x4 : Vec Ideal S64x128 .f32) (x5 : Vec Ideal S64x1 .f32) (b : Fin 16) (j : Fin 8192) :
    out0_A_6 (F := Ideal) c (grid0.coords t) arg1 harg1 arg2 harg2 arg3 harg3 arg4 harg4 arg5 harg5 arg6 harg6 arg7 harg7 arg8 harg8 arg9 harg9 hc0 x0 x1 x2 x3 x4 x5 (ix2 b j)
      = 0 + stepAt x0 x1 x2 x3 (ktOf x4 x1 x5) (pt t) b j := by
  unfold out0_A_6
  rw [View.read_writes_eq_canon _ _ _ (cover0_A_6 c (grid0.coords t) arg1 harg1 arg2 harg2 arg3 harg3 arg4 harg4 arg5 harg5 arg6 harg6 arg7 harg7 arg8 harg8 arg9 harg9 hc0 x0 x1 x2 x3 x4 x5)]
  unfold kernelRun0_A; dsimp only; sl_unfold_run_names
  simp only [View.readAt_eq_ld, Memref.IsWhole.read_unread, View.ld_unit_zero (S := S64x128) hz, View.ld_unit_zero (S := S8192x128) hz, View.ld_unit_zero (S := S64x1) hz, View.ld_unit_zero (S := S1x64) hz, View.ld_unit_zero (S := S16x8192) hz, View.ld_unit_zero (S := S512x8192) hz, View.ld_unit_zero (S := S64x8192) hz, View.readCov_eq_canon', View.canon_unit_zero (S := S16x8192) hz, View.canon_unit_zero (S := S64x8192) hz]
  rw [KPay.pay2_eq]
  refine (congrFun (View.canon_cons_unit_zero (Val := Elt Ideal) (S := S16x8192) (e := EltTy.f32) hz inb_S16x8192_S16x8192_0_0 _ _) (ix2 b j)).trans ?_
  rw [KPay.pay1_apply, KPay.pay24_apply]
  refine congrArg₂ (· + ·) (KPay.pay3_apply _) ?_
  exact step_core2 x0 x1 x2 x3 (ktOf x4 x1 x5) (pt t) _ (ld_rows x1 t _) _ _ _ _ _ _ _ _
    (ld_chunk _ 0 rfl rfl _) (ld_chunk _ 1 rfl rfl _) (ld_chunk _ 2 rfl rfl _) (ld_chunk _ 3 rfl rfl _) (ld_chunk _ 4 rfl rfl _) (ld_chunk _ 5 rfl rfl _) (ld_chunk _ 6 rfl rfl _) (ld_chunk _ 7 rfl rfl _)
    _ (ld_cols x0 t _) b j

/-- A later point's case leaves what the block held before plus its contribution over the kept key features `xs0`. -/
theorem outB_apply (c : Dev nD) (t : Fin cfg0.N) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S512x8192 .bf16) (harg9 : arg9.IsWhole) (hc0 : ¬cond0_0 (grid0.coords t))
    (x0 : Vec Ideal S16x8192 .f32) (x1 : Vec Ideal S8192x128 .f32) (x2 : Vec Ideal S64x128 .f32) (x3 : Vec Ideal S1x64 .f32) (x4 : Vec Ideal S64x128 .f32) (x5 : Vec Ideal S64x1 .f32) (xo6 : Vec Ideal S16x8192 .f32) (xs0 : Vec Ideal S64x8192 .bf16) (b : Fin 16) (j : Fin 8192) :
    out0_B_6 (F := Ideal) c (grid0.coords t) arg1 harg1 arg2 harg2 arg3 harg3 arg4 harg4 arg5 harg5 arg6 harg6 arg7 harg7 arg8 harg8 arg9 harg9 hc0 x0 x1 x2 x3 x4 x5 xo6 xs0 (ix2 b j)
      = xo6 (ix2 b j) + stepAt x0 x1 x2 x3 xs0 (pt t) b j := by
  unfold out0_B_6
  rw [View.read_writes_eq_canon _ _ _ (cover0_B_6 c (grid0.coords t) arg1 harg1 arg2 harg2 arg3 harg3 arg4 harg4 arg5 harg5 arg6 harg6 arg7 harg7 arg8 harg8 arg9 harg9 hc0 x0 x1 x2 x3 x4 x5 xo6 xs0)]
  unfold kernelRun0_B; dsimp only; sl_unfold_run_names
  simp only [View.readAt_eq_ld, Memref.IsWhole.read_unread, View.ld_unit_zero (S := S64x128) hz, View.ld_unit_zero (S := S8192x128) hz, View.ld_unit_zero (S := S64x1) hz, View.ld_unit_zero (S := S1x64) hz, View.ld_unit_zero (S := S16x8192) hz, View.ld_unit_zero (S := S512x8192) hz, View.ld_unit_zero (S := S64x8192) hz, View.readCov_eq_canon', View.canon_unit_zero (S := S16x8192) hz, View.canon_unit_zero (S := S64x8192) hz]
  rw [KPay.pay1_apply, KPay.pay24_apply]
  refine congrArg (xo6 (ix2 b j) + ·) ?_
  exact step_core2 x0 x1 x2 x3 xs0 (pt t) _ (ld_rows x1 t _) _ _ _ _ _ _ _ _
    (ld_chunk _ 0 rfl rfl _) (ld_chunk _ 1 rfl rfl _) (ld_chunk _ 2 rfl rfl _) (ld_chunk _ 3 rfl rfl _) (ld_chunk _ 4 rfl rfl _) (ld_chunk _ 5 rfl rfl _) (ld_chunk _ 6 rfl rfl _) (ld_chunk _ 7 rfl rfl _)
    _ (ld_cols x0 t _) b j

end Cert.KernelIdeal.KBody

end
-- ==== Proof.Spec.lean ====
/-
  What both programs compute, as functions of the six argument arrays over the extended reals.

  With `emb : [8192, 128]`, the key map `(wk, bk)` and the query map `(wq, bq)` (each a
  `[64, 128]` matrix and a `[64]` bias):
    keyT[h, s]  = Σ_d wk[h, d] · emb[s, d] + bk[h]          (the key features, transposed)
    qry[s, h]   = Σ_d emb[s, d] · wq[h, d] + bq[h]          (the query features)
    logit[i, j] = Σ_h qry[i, h] · keyT[h, j]
  and the transition matrix is the row softmax of `logit`. The result is `belief · softmax(logit)`.

  Two spellings of that result are stated here. `outK` divides the belief entry by the row's plain
  sum of exponentials and then multiplies by the exponential (no shift of the exponent). `outR`
  shifts every exponent of row `i` by a number `M i` first, divides the shifted exponential by the
  shifted row sum, and then multiplies by the belief entry. They agree whenever everything is a real
  number (module `Law`): `exp (l - M) = exp l / exp M` and the common factor cancels.
-/
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals of literal extents. -/
abbrev Arr2 (a b : Nat) : Type := (⟨2, ![a, b]⟩ : Shape).Idx → EReal
/-- A rank-1 array of extended reals of literal extent. -/
abbrev Arr1 (a : Nat) : Type := (⟨1, ![a]⟩ : Shape).Idx → EReal

/-- The key features, transposed: `keyT[h, s] = Σ_d wk[h, d] · emb[s, d] + bk[h]`. -/
def keyT (emb : Arr2 8192 128) (wk : Arr2 64 128) (bk : Arr1 64) (h : Fin 64) (s : Fin 8192) : EReal :=
  (∑ d : Fin 128, wk (ix2 h d) * emb (ix2 s d)) + bk (ix1 h)

/-- The query features: `qry[s, h] = Σ_d emb[s, d] · wq[h, d] + bq[h]`. -/
def qry (emb : Arr2 8192 128) (wq : Arr2 64 128) (bq : Arr1 64) (s : Fin 8192) (h : Fin 64) : EReal :=
  (∑ d : Fin 128, emb (ix2 s d) * wq (ix2 h d)) + bq (ix1 h)

/-- The logits: `logit[i, j] = Σ_h qry[i, h] · keyT[h, j]`. -/
def logit (emb : Arr2 8192 128) (wk : Arr2 64 128) (bk : Arr1 64) (wq : Arr2 64 128) (bq : Arr1 64)
    (i j : Fin 8192) : EReal :=
  ∑ h : Fin 64, qry emb wq bq i h * keyT emb wk bk h j

/-- The plain row sum of exponentials: `rowSum[i] = Σ_j exp logit[i, j]`. -/
def rowSum (emb : Arr2 8192 128) (wk : Arr2 64 128) (bk : Arr1 64) (wq : Arr2 64 128) (bq : Arr1 64)
    (i : Fin 8192) : EReal :=
  ∑ j : Fin 8192, Ideal.exp (logit emb wk bk wq bq i j)

/-- The unshifted spelling: `outK[b, j] = Σ_i (belief[b, i] / rowSum[i]) · exp logit[i, j]`. -/
def outK (belief : Arr2 16 8192) (emb : Arr2 8192 128) (wk : Arr2 64 128) (bk : Arr1 64) (wq : Arr2 64 128)
    (bq : Arr1 64) (b : Fin 16) (j : Fin 8192) : EReal :=
  ∑ i : Fin 8192, Ideal.div (belief (ix2 b i)) (rowSum emb wk bk wq bq i) * Ideal.exp (logit emb wk bk wq bq i j)

/-- The shifted spelling, for a row shift `M`:
    `outR[b, j] = Σ_i belief[b, i] · (exp (logit[i, j] - M i) / (0 + Σ_j' exp (logit[i, j'] - M i)))`. -/
def outR (belief : Arr2 16 8192) (emb : Arr2 8192 128) (wk : Arr2 64 128) (bk : Arr1 64) (wq : Arr2 64 128)
    (bq : Arr1 64) (M : Fin 8192 → EReal) (b : Fin 16) (j : Fin 8192) : EReal :=
  ∑ i : Fin 8192, belief (ix2 b i) *
    Ideal.div (Ideal.exp (logit emb wk bk wq bq i j - M i))
      (0 + ∑ j' : Fin 8192, Ideal.exp (logit emb wk bk wq bq i j' - M i))

end Cert.Spec

end
-- ==== Proof.KSum.lean ====
/-
  The sixteen grid points' contributions add up to the unshifted spelling `Spec.outK`.

  Point `t` contributes the rows `512·t … 512·t + 511` of the sum over all 8192 rows; the key features the
  kernel keeps are `Spec.keyT`, its query features `Spec.qry` (the biases reach the kernel reshaped to a column
  and to a row), so its logits and row sums are `Spec.logit` and `Spec.rowSum`.
-/
import proofs.«121411_g5935644803188_cont_9to1c4b_610_11_alg».proof.Proof.KDefs
import proofs.«121411_g5935644803188_cont_9to1c4b_610_11_alg».proof.Proof.Spec
import proofs.«121411_g5935644803188_cont_9to1c4b_610_11_alg».proof.Proof.LibBlockSum

noncomputable section

namespace Cert.KernelIdeal.KSum

open Idealize.ShloMosaic Idealize.ShloMosaic.ValueIdx Cert.KernelIdeal Cert.KernelIdeal.K Cert.Spec
open scoped BigOperators

/-- The stored key features read at `(h, s)` are the key features at `(h, s)`. -/
theorem ktOf_at (x4 : FVec Ideal S64x128 .f32) (x1 : FVec Ideal S8192x128 .f32) (x5 : FVec Ideal S64x1 .f32)
    (h : Fin 64) (s : Fin 8192) : ktOf x4 x1 x5 (ix2 h s) = ktAt x4 x1 x5 h s := rfl

/-- The kernel's key features are the specification's, the bias column read as the bias. -/
theorem ktAt_eq (x4 : FVec Ideal S64x128 .f32) (x1 : FVec Ideal S8192x128 .f32) (x5 : FVec Ideal S64x1 .f32)
    (bk : Arr1 64) (h5 : ∀ h : Fin 64, x5 (ix2 h 0) = bk (ix1 h)) (h : Fin 64) (s : Fin 8192) :
    ktAt x4 x1 x5 h s = keyT x1 x4 bk h s := by
  unfold ktAt keyT
  rw [h5]

/-- The kernel's query features are the specification's, the bias row read as the bias. -/
theorem qAt_eq (x1 : FVec Ideal S8192x128 .f32) (x2 : FVec Ideal S64x128 .f32) (x3 : FVec Ideal S1x64 .f32)
    (bq : Arr1 64) (h3 : ∀ h : Fin 64, x3 (ix2 0 h) = bq (ix1 h)) (s : Fin 8192) (h : Fin 64) :
    qAt x1 x2 x3 s h = qry x1 x2 bq s h := by
  unfold qAt qry
  rw [h3]

/-- The kernel's logits over the key features it stores are the specification's.
    (`x1` the embedding, `x2` the query weight, `x3` the query bias as a row, `x4` the key weight, `x5` the key
    bias as a column.) -/
theorem lgAt_eq (x1 : FVec Ideal S8192x128 .f32) (x2 : FVec Ideal S64x128 .f32) (x3 : FVec Ideal S1x64 .f32)
    (x4 : FVec Ideal S64x128 .f32) (x5 : FVec Ideal S64x1 .f32) (bk bq : Arr1 64)
    (h3 : ∀ h : Fin 64, x3 (ix2 0 h) = bq (ix1 h)) (h5 : ∀ h : Fin 64, x5 (ix2 h 0) = bk (ix1 h)) (s j : Fin 8192) :
    lgAt x1 x2 x3 (ktOf x4 x1 x5) s j = logit x1 x4 bk x2 bq s j := by
  unfold lgAt logit
  exact Finset.sum_congr rfl fun h _ => by rw [qAt_eq x1 x2 x3 bq h3, ktOf_at, ktAt_eq x4 x1 x5 bk h5]

/-- The kernel's row sums of exponentials are the specification's. -/
theorem zAt_eq (x1 : FVec Ideal S8192x128 .f32) (x2 : FVec Ideal S64x128 .f32) (x3 : FVec Ideal S1x64 .f32)
    (x4 : FVec Ideal S64x128 .f32) (x5 : FVec Ideal S64x1 .f32) (bk bq : Arr1 64)
    (h3 : ∀ h : Fin 64, x3 (ix2 0 h) = bq (ix1 h)) (h5 : ∀ h : Fin 64, x5 (ix2 h 0) = bk (ix1 h)) (s : Fin 8192) :
    zAt x1 x2 x3 (ktOf x4 x1 x5) s = rowSum x1 x4 bk x2 bq s := by
  unfold zAt rowSum
  exact Finset.sum_congr rfl fun j _ => by rw [lgAt_eq x1 x2 x3 x4 x5 bk bq h3 h5]

/-- A sum over the 8192 rows is the sum over the sixteen blocks of the sums over each block's 512 rows. -/
theorem sum_rows {M : Type} [AddCommMonoid M] (f : Fin 8192 → M) :
    ∑ t : Fin 16, ∑ r : Fin 512, f (row t r) = ∑ i : Fin 8192, f i :=
  Cert.Lib.BlockSum.sum_blocks 16 512 f

/-- The sixteen contributions, summed, are `Spec.outK` at (belief, embedding, key weight, key bias, query weight, query bias). -/
theorem sum_steps (x0 : FVec Ideal S16x8192 .f32) (x1 : FVec Ideal S8192x128 .f32) (x2 : FVec Ideal S64x128 .f32)
    (x3 : FVec Ideal S1x64 .f32) (x4 : FVec Ideal S64x128 .f32) (x5 : FVec Ideal S64x1 .f32) (bk bq : Arr1 64)
    (h3 : ∀ h : Fin 64, x3 (ix2 0 h) = bq (ix1 h)) (h5 : ∀ h : Fin 64, x5 (ix2 h 0) = bk (ix1 h))
    (b : Fin 16) (j : Fin 8192) :
    ∑ t : Fin 16, stepAt x0 x1 x2 x3 (ktOf x4 x1 x5) t b j = outK x0 x1 x4 bk x2 bq b j := by
  unfold stepAt outK
  simp only [zAt_eq x1 x2 x3 x4 x5 bk bq h3 h5, lgAt_eq x1 x2 x3 x4 x5 bk bq h3 h5]
  exact sum_rows fun i => Ideal.div (x0 (ix2 b i)) (rowSum x1 x4 bk x2 bq i) * Ideal.exp (logit x1 x4 bk x2 bq i j)

end Cert.KernelIdeal.KSum

end
-- ==== Proof.KRun.lean ====
/-
  The kernel's result array, read off its frame run.

  Every input window's block is the whole array at every grid point (the index maps are constant),
  so the first point stores the key features of the whole embedding into the scratch buffer it keeps
  and every later point finds them there. The output block is never moved either: after point `n` it
  holds `0` plus the contributions of points `0 … n`, and it is written back once, after the last
  point, where it is the whole result array. The sixteen contributions sum to `Spec.outK`.
-/
import proofs.«121411_g5935644803188_cont_9to1c4b_610_11_alg».proof.Proof.Gen.KernelIdeal.Value
import proofs.«121411_g5935644803188_cont_9to1c4b_610_11_alg».proof.Proof.KBody
import proofs.«121411_g5935644803188_cont_9to1c4b_610_11_alg».proof.Proof.KSum
import proofs.«121411_g5935644803188_cont_9to1c4b_610_11_alg».proof.Proof.LibBlockSum
import Idealize.ShloMosaic.Lib.Pipeline.Value
import Idealize.ShloMosaic.Lib.ValueLayout
import Idealize.ShloMosaic.Lib.StableHlo.Run

noncomputable section

namespace Cert.KernelIdeal.KRun

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.K Cert.KernelIdeal.KBody
open scoped BigOperators

variable (m : (ℓ : Loc nD τ sig) → Buf (Elt Ideal) ℓ) (ρ : Dev nD → PrngReg)

/-! ## The arrays as the region finds them, and the windows' blocks -/

/-- The belief array. -/
abbrev a0 (c : Dev nD) : Vec Ideal S16x8192 .f32 := V m c main_arg0
/-- The embedding. -/
abbrev a1 (c : Dev nD) : Vec Ideal S8192x128 .f32 := V m c main_arg1
/-- The query weight. -/
abbrev a2 (c : Dev nD) : Vec Ideal S64x128 .f32 := V m c main_arg4
/-- The query bias, reshaped to a row by the host. -/
abbrev a3 (c : Dev nD) : Vec Ideal S1x64 .f32 := V m c main_v0
/-- The key weight. -/
abbrev a4 (c : Dev nD) : Vec Ideal S64x128 .f32 := V m c main_arg2
/-- The key bias, reshaped to a column by the host. -/
abbrev a5 (c : Dev nD) : Vec Ideal S64x1 .f32 := V m c main_v1

theorem idx0 : ∀ t : Fin cfg0.N, win0_0.index t 0 = 0 ∧ win0_0.index t 1 = 0 :=
  (by decide +kernel : ∀ t : Fin grid0.N, win0_0.index t 0 = 0 ∧ win0_0.index t 1 = 0)

/-- Window 0's block at any point is the whole belief array: its block index is `(0, 0)` and the block has the array's extents. -/
theorem iblk0 (c : Dev nD) (t : Fin cfg0.N) : (iblk m c 0 t : Vec Ideal S16x8192 .f32) = a0 m c := by
  funext j
  unfold iblk
  rw [View.read_apply]
  show V m c main_arg0 _ = V m c main_arg0 j
  congr 1
  funext a
  apply Fin.ext
  match a with
  | ⟨0, _⟩ => show win0_0.index t 0 * 16 + 1 * (j 0).val = (j 0).val; rw [(idx0 t).1]; omega
  | ⟨1, _⟩ => show win0_0.index t 1 * 8192 + 1 * (j 1).val = (j 1).val; rw [(idx0 t).2]; omega

theorem idx1 : ∀ t : Fin cfg0.N, win0_1.index t 0 = 0 ∧ win0_1.index t 1 = 0 :=
  (by decide +kernel : ∀ t : Fin grid0.N, win0_1.index t 0 = 0 ∧ win0_1.index t 1 = 0)

theorem iblk1 (c : Dev nD) (t : Fin cfg0.N) : (iblk m c 1 t : Vec Ideal S8192x128 .f32) = a1 m c := by
  funext j
  unfold iblk
  rw [View.read_apply]
  show V m c main_arg1 _ = V m c main_arg1 j
  congr 1
  funext a
  apply Fin.ext
  match a with
  | ⟨0, _⟩ => show win0_1.index t 0 * 8192 + 1 * (j 0).val = (j 0).val; rw [(idx1 t).1]; omega
  | ⟨1, _⟩ => show win0_1.index t 1 * 128 + 1 * (j 1).val = (j 1).val; rw [(idx1 t).2]; omega

theorem idx2 : ∀ t : Fin cfg0.N, win0_2.index t 0 = 0 ∧ win0_2.index t 1 = 0 :=
  (by decide +kernel : ∀ t : Fin grid0.N, win0_2.index t 0 = 0 ∧ win0_2.index t 1 = 0)

theorem iblk2 (c : Dev nD) (t : Fin cfg0.N) : (iblk m c 2 t : Vec Ideal S64x128 .f32) = a2 m c := by
  funext j
  unfold iblk
  rw [View.read_apply]
  show V m c main_arg4 _ = V m c main_arg4 j
  congr 1
  funext a
  apply Fin.ext
  match a with
  | ⟨0, _⟩ => show win0_2.index t 0 * 64 + 1 * (j 0).val = (j 0).val; rw [(idx2 t).1]; omega
  | ⟨1, _⟩ => show win0_2.index t 1 * 128 + 1 * (j 1).val = (j 1).val; rw [(idx2 t).2]; omega

theorem idx3 : ∀ t : Fin cfg0.N, win0_3.index t 0 = 0 ∧ win0_3.index t 1 = 0 :=
  (by decide +kernel : ∀ t : Fin grid0.N, win0_3.index t 0 = 0 ∧ win0_3.index t 1 = 0)

theorem iblk3 (c : Dev nD) (t : Fin cfg0.N) : (iblk m c 3 t : Vec Ideal S1x64 .f32) = a3 m c := by
  funext j
  unfold iblk
  rw [View.read_apply]
  show V m c main_v0 _ = V m c main_v0 j
  congr 1
  funext a
  apply Fin.ext
  match a with
  | ⟨0, _⟩ => show win0_3.index t 0 * 1 + 1 * (j 0).val = (j 0).val; rw [(idx3 t).1]; omega
  | ⟨1, _⟩ => show win0_3.index t 1 * 64 + 1 * (j 1).val = (j 1).val; rw [(idx3 t).2]; omega

theorem idx4 : ∀ t : Fin cfg0.N, win0_4.index t 0 = 0 ∧ win0_4.index t 1 = 0 :=
  (by decide +kernel : ∀ t : Fin grid0.N, win0_4.index t 0 = 0 ∧ win0_4.index t 1 = 0)

theorem iblk4 (c : Dev nD) (t : Fin cfg0.N) : (iblk m c 4 t : Vec Ideal S64x128 .f32) = a4 m c := by
  funext j
  unfold iblk
  rw [View.read_apply]
  show V m c main_arg2 _ = V m c main_arg2 j
  congr 1
  funext a
  apply Fin.ext
  match a with
  | ⟨0, _⟩ => show win0_4.index t 0 * 64 + 1 * (j 0).val = (j 0).val; rw [(idx4 t).1]; omega
  | ⟨1, _⟩ => show win0_4.index t 1 * 128 + 1 * (j 1).val = (j 1).val; rw [(idx4 t).2]; omega

theorem idx5 : ∀ t : Fin cfg0.N, win0_5.index t 0 = 0 ∧ win0_5.index t 1 = 0 :=
  (by decide +kernel : ∀ t : Fin grid0.N, win0_5.index t 0 = 0 ∧ win0_5.index t 1 = 0)

theorem iblk5 (c : Dev nD) (t : Fin cfg0.N) : (iblk m c 5 t : Vec Ideal S64x1 .f32) = a5 m c := by
  funext j
  unfold iblk
  rw [View.read_apply]
  show V m c main_v1 _ = V m c main_v1 j
  congr 1
  funext a
  apply Fin.ext
  match a with
  | ⟨0, _⟩ => show win0_5.index t 0 * 64 + 1 * (j 0).val = (j 0).val; rw [(idx5 t).1]; omega
  | ⟨1, _⟩ => show win0_5.index t 1 * 1 + 1 * (j 1).val = (j 1).val; rw [(idx5 t).2]; omega

/-- An `[a]` array cast to a column `[a, 1]` reads, at `(i, u)`, the operand at `i`: both indices have the same
    row-major position. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The host's reshape of the query bias to a row reads the bias at the column. -/
theorem a3_at (c : Dev nD) (h : Fin 64) :
    a3 m c (ix2 (0 : Fin 1) h) = m ((c : Thread nD τ).loc main_arg5) (ix1 h) := by
  have e : (V m c main_v0 : S1x64.Idx → EReal)
      = shapeCast S1x64 (m ((c : Thread nD τ).loc main_arg5)) shapeCasts_S64_S1x64 := by
    dsimp only [V, hostOps0]; after_results; rfl
  exact (congrFun e (ix2 (0 : Fin 1) h)).trans (shapeCast_a_1a_apply _ _ 0 h)

/-- The host's reshape of the key bias to a column reads the bias at the row. -/
theorem a5_at (c : Dev nD) (h : Fin 64) :
    a5 m c (ix2 h (0 : Fin 1)) = m ((c : Thread nD τ).loc main_arg3) (ix1 h) := by
  have e : (V m c main_v1 : S64x1.Idx → EReal)
      = shapeCast S64x1 (m ((c : Thread nD τ).loc main_arg3)) shapeCasts_S64_S64x1 := by
    dsimp only [V, hostOps0]; after_results; rfl
  exact (congrFun e (ix2 h (0 : Fin 1))).trans (shapeCast_a_a1_apply _ _ h 0)

/-! ## What the buffers hold after each point -/

/-- The key features of the whole embedding. -/
abbrev KT (c : Dev nD) : FVec Ideal S64x8192 .bf16 := ktOf (a4 m c) (a1 m c) (a5 m c)

/-- After every point the kept scratch buffer holds the key features: the first point stores them, the others leave it. -/
theorem kt_inv (c : Dev nD) : ∀ (n : ℕ) (h : n < cfg0.N), (outsAt0 m c n h).2 = KT m c
  | 0, h => by
    rw [outsAt0_A m c ⟨0, h⟩ rfl]
    dsimp only
    rw [soutA_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) _ (iblk m c 0 ⟨0, h⟩) (iblk m c 1 ⟨0, h⟩) (iblk m c 2 ⟨0, h⟩) (iblk m c 3 ⟨0, h⟩) (iblk m c 4 ⟨0, h⟩) (iblk m c 5 ⟨0, h⟩)]
    rw [iblk4, iblk1, iblk5]
  | n + 1, h => by
    have hN : cfg0.N = 16 := N_0
    have hB : ¬(⟨n + 1, h⟩ : Fin cfg0.N).val % 16 = 0 := by dsimp only; omega
    rw [outsAt0_B m c ⟨n + 1, h⟩ hB]
    dsimp only [sout0_B_0]
    exact kt_inv c n _

/-- After the first point the output block holds zero plus that point's contribution. -/
theorem out0 (c : Dev nD) (h : 0 < cfg0.N) (b : Fin 16) (j : Fin 8192) :
    (outsAt0 m c 0 h).1 (ix2 b j) = 0 + stepAt (a0 m c) (a1 m c) (a2 m c) (a3 m c) (KT m c) (pt ⟨0, h⟩) b j := by
  rw [outsAt0_A m c ⟨0, h⟩ rfl]
  dsimp only
  rw [outA_apply c ⟨0, h⟩ (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) _ (iblk m c 0 ⟨0, h⟩) (iblk m c 1 ⟨0, h⟩) (iblk m c 2 ⟨0, h⟩) (iblk m c 3 ⟨0, h⟩) (iblk m c 4 ⟨0, h⟩) (iblk m c 5 ⟨0, h⟩) b j]
  rw [iblk0, iblk1, iblk2, iblk3, iblk4, iblk5]

/-- After a later point it holds what the point before left plus that point's contribution. -/
theorem outS (c : Dev nD) (n : ℕ) (h : n + 1 < cfg0.N) (b : Fin 16) (j : Fin 8192) :
    (outsAt0 m c (n + 1) h).1 (ix2 b j)
      = (outsAt0 m c n (Nat.lt_of_succ_lt h)).1 (ix2 b j)
        + stepAt (a0 m c) (a1 m c) (a2 m c) (a3 m c) (KT m c) (pt ⟨n + 1, h⟩) b j := by
  have hN : cfg0.N = 16 := N_0
  have hB : ¬(⟨n + 1, h⟩ : Fin cfg0.N).val % 16 = 0 := by dsimp only; omega
  rw [outsAt0_B m c ⟨n + 1, h⟩ hB]
  dsimp only
  rw [outB_apply c ⟨n + 1, h⟩ (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _ b j]
  rw [iblk0, iblk1, iblk2, iblk3]
  show (outsAt0 m c n _).1 (ix2 b j) + stepAt _ _ _ _ (outsAt0 m c n _).2 _ b j = _
  rw [kt_inv m c n]

/-! ## The result -/

/-- The result array: `Spec.outK` of the six argument arrays as launched. -/
def result (c : Dev nD) : Buf (Elt Ideal) ((c : Thread nD τ).loc main_v2) :=
  fun i => Spec.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ⟨(i 0).val, (i 0).isLt⟩ ⟨(i 1).val, (i 1).isLt⟩

theorem lt15 : 15 < cfg0.N := by rw [show cfg0.N = 16 from N_0]; decide

/-- After the last point the output block is the result: the accumulated contributions of all sixteen points. -/
theorem last_eq (c : Dev nD) : (outsAt0 m c 15 lt15).1 = result m c := by
  have hN : cfg0.N = 16 := N_0
  funext i
  obtain ⟨b, j, rfl⟩ : ∃ (b : Fin 16) (j : Fin 8192), i = ix2 b j := ⟨i 0, i 1, eq_ix2 i⟩
  have hsum := Cert.Lib.BlockSum.acc_eq_sum_fin 15
    (fun t : Fin 16 => stepAt (a0 m c) (a1 m c) (a2 m c) (a3 m c) (KT m c) t b j)
    (fun t : Fin 16 => (outsAt0 m c t.val (by have := t.isLt; omega)).1 (ix2 b j))
    (out0 m c (by omega) b j)
    (fun n h => outS m c n (by omega) b j)
  refine hsum.trans ?_
  refine (Cert.KernelIdeal.KSum.sum_steps (a0 m c) (a1 m c) (a2 m c) (a3 m c) (a4 m c) (a5 m c)
    (m ((c : Thread nD τ).loc main_arg3)) (m ((c : Thread nD τ).loc main_arg5)) (a3_at m c) (a5_at m c) b j).trans ?_
  show Spec.outK (V m c main_arg0) (V m c main_arg1) (V m c main_arg2) _ (V m c main_arg4) _ b j = _
  rw [V_main_arg0, V_main_arg1, V_main_arg2, V_main_arg4]
  rfl

/-- The one write-back, after the last point, writes the result: block `(0, 0)` of the array, read through zero offsets, is the array. -/
theorem flushed_eq (c : Dev nD) (t : Fin cfg0.N) (hf : (cfg0.win 6).flush t = true) :
    (dats m 0 c).flushed 6 t = ((cfg0.win 6).blk t).view.read (Elt Ideal) (result m c) := by
  have hN : cfg0.N = 16 := N_0
  have h15 : t.val = 15 := by have := (flush0_6 t).mp hf; have := t.isLt; omega
  obtain rfl : t = t0_15 := Fin.ext h15
  rw [Cert.KernelIdeal.Value.flushed6]
  show (cfg0.win 6).cut (grid0.coords t0_15) ((outsAt0 m c 15 lt15).1) = _
  rw [last_eq]
  have hz' : (fun a => win0_6.index t0_15 a * main_v2.ty.shape.size a) = fun _ => 0 := funext fun a => by fin_cases a <;> decide
  exact (Memref.read_access_unit_zero (Elt Ideal) main_v2 hz' (fun a => by rw [congrFun hz' a]; simp) (result m c)).symm

/-- So the result array ends holding the result. -/
theorem final (c : Dev nD) : (dats m 0 c).arrAt 6 cfg0.N = result m c :=
  (dats m 0 c).arrAt_eq_of_cover 6 (result m c) (flushed_eq m c) fun i =>
    ⟨t0_15, (flush0_6 t0_15).mpr rfl, by
      show i ∈ ((View.whole main_v2).slice (win0_6.rect t0_15)).set
      rw [View.set_slice_whole, Rect.mem_set_unit]
      intro a
      have h0 : (i 0 : Nat) < 16 := (i 0).isLt
      have h1 : (i 1 : Nat) < 8192 := (i 1).isLt
      match a with
      | ⟨0, _⟩ => show win0_6.index t0_15 0 * win0_6.size 0 ≤ (i 0 : Nat) ∧ (i 0 : Nat) < win0_6.index t0_15 0 * win0_6.size 0 + win0_6.xsize (grid0.coords t0_15) 0
                  rw [show win0_6.index t0_15 0 * win0_6.size 0 = 0 from by decide +kernel, show win0_6.xsize (grid0.coords t0_15) 0 = 16 from by decide +kernel]; omega
      | ⟨1, _⟩ => show win0_6.index t0_15 1 * win0_6.size 1 ≤ (i 1 : Nat) ∧ (i 1 : Nat) < win0_6.index t0_15 1 * win0_6.size 1 + win0_6.xsize (grid0.coords t0_15) 1
                  rw [show win0_6.index t0_15 1 * win0_6.size 1 = 0 from by decide +kernel, show win0_6.xsize (grid0.coords t0_15) 1 = 8192 from by decide +kernel]; omega⟩

/-- The run, read: the result array at `Spec.outK` of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.KRun

end
-- ==== Proof.LibRealArith.lean ====
/-
  Arithmetic on extended reals that are reals, as the ideal reading of float operations needs it.

  The ideal values are Mathlib's `EReal`; its `+`, `-`, `*`, `max` restrict to the real operations
  on (coerced) reals, and so do a division by a nonzero real, a finite sum, and the reciprocal
  square root of a positive real. `IsReal x` says "`x` is the coercion of a real"; the lemmas
  below close it under those operations, move a finite sum through the coercion (`coe_sum`), and
  state the one law of batch statistics used downstream: the mean of the squares minus the square
  of the mean IS the mean of the squared deviations (`var_real` over `ℝ`; `var_ereal` on extended
  reals that are reals, in the operations' own spelling), which is nonnegative
  (`var_real_nonneg`, `var_ereal_isReal_nonneg`). Last, three evaluations of `f32` literals.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Fin
import Mathlib.Algebra.Order.BigOperators.Group.Finset
import Mathlib.Analysis.SpecialFunctions.Pow.Real
import Mathlib.Tactic.Ring
import Mathlib.Tactic.FieldSimp
import Mathlib.Tactic.NormNum
import Mathlib.Tactic.Positivity

namespace Cert.Lib.RealArith

open Idealize.ShloMosaic
open scoped BigOperators

/-- An extended real that is (the coercion of) a real: neither infinity. -/
def IsReal (x : EReal) : Prop := ∃ r : ℝ, x = (r : EReal)

/-- A coerced real is a real. -/
theorem isReal_coe (r : ℝ) : IsReal (r : EReal) := ⟨r, rfl⟩

/-- Zero is a real. -/
theorem isReal_zero : IsReal 0 := ⟨0, rfl⟩

/-- One is a real. -/
theorem isReal_one : IsReal 1 := ⟨1, rfl⟩

/-- A real is not the top element. -/
theorem IsReal.ne_top {x : EReal} (hx : IsReal x) : x ≠ ⊤ := by
  obtain ⟨a, rfl⟩ := hx; exact EReal.coe_ne_top a

/-- A real is not the bottom element. -/
theorem IsReal.ne_bot {x : EReal} (hx : IsReal x) : x ≠ ⊥ := by
  obtain ⟨a, rfl⟩ := hx; exact EReal.coe_ne_bot a

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem IsReal.neg {x : EReal} (hx : IsReal x) : IsReal (-x) := by
  obtain ⟨a, rfl⟩ := hx; exact ⟨-a, (EReal.coe_neg a).symm⟩

/-- The maximum of two reals is a real. -/
theorem IsReal.max {x y : EReal} (hx : IsReal x) (hy : IsReal y) : IsReal (max x y) := by
  obtain ⟨a, rfl⟩ := hx; obtain ⟨b, rfl⟩ := hy; exact ⟨Max.max a b, EReal.coe_strictMono.monotone.map_max.symm⟩

/-- The minimum of two reals is a real. -/
theorem IsReal.min {x y : EReal} (hx : IsReal x) (hy : IsReal y) : IsReal (min x y) := by
  obtain ⟨a, rfl⟩ := hx; obtain ⟨b, rfl⟩ := hy; exact ⟨Min.min a b, EReal.coe_strictMono.monotone.map_min.symm⟩

/-- The coercion `ℝ → EReal` commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- A real divided (the float division of the ideal reading) by a nonzero real is a real. -/
theorem IsReal.div_coe {y : ℝ} (hy : y ≠ 0) {x : EReal} (hx : IsReal x) :
    IsReal (Ideal.div x (y : EReal)) := by
  rw [Ideal.div_coe hy]; exact hx.mul (isReal_coe _)

/-- The float division of a coerced real by a nonzero coerced real is the coerced real quotient. -/
theorem div_coe_coe {y : ℝ} (hy : y ≠ 0) (x : ℝ) :
    Ideal.div (x : EReal) (y : EReal) = ((x / y : ℝ) : EReal) := by
  rw [Ideal.div_coe hy, ← EReal.coe_mul, mul_one_div]

/-- The reciprocal square root of a positive real, as a value: the coerced `(√r)⁻¹`. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal square root of a positive real is a real. -/
theorem IsReal.rsqrt_of_pos {r : ℝ} (hr : 0 < r) : IsReal (Ideal.rsqrt (r : EReal)) :=
  ⟨_, rsqrt_coe_of_pos hr⟩

/-- The reciprocal square root of a nonnegative real plus a positive real, as a value. -/
theorem rsqrt_add_coe_of_nonneg_of_pos {v e : ℝ} (hv : 0 ≤ v) (he : 0 < e) :
    Ideal.rsqrt ((v : EReal) + (e : EReal)) = (((Real.sqrt (v + e))⁻¹ : ℝ) : EReal) := by
  rw [← EReal.coe_add]; exact rsqrt_coe_of_pos (add_pos_of_nonneg_of_pos hv he)

/-- The reciprocal square root of a nonnegative real plus a positive real is a real. -/
theorem IsReal.rsqrt_add_of_nonneg_of_pos {v e : ℝ} (hv : 0 ≤ v) (he : 0 < e) :
    IsReal (Ideal.rsqrt ((v : EReal) + (e : EReal))) :=
  ⟨_, rsqrt_add_coe_of_nonneg_of_pos hv he⟩

/-- Over `ℝ`, for `n ≥ 1` entries: the mean of the squares minus the square of the mean is the mean
    of the squared deviations from the mean. -/
theorem var_real {n : ℕ} (hn : 0 < n) (a : Fin n → ℝ) :
    (∑ i, a i * a i) / n - ((∑ i, a i) / n) * ((∑ i, a i) / n)
      = (∑ i, (a i - (∑ i, a i) / n) * (a i - (∑ i, a i) / n)) / n := by
  have hN : (n : ℝ) ≠ 0 := by exact_mod_cast hn.ne'
  generalize hS : (∑ i, a i) = S
  have h1 : ∀ m : ℝ, ∑ i, (a i - m) * (a i - m) = (∑ i, a i * a i) - 2 * m * S + n * (m * m) := by
    intro m
    have h2 : ∀ i, (a i - m) * (a i - m) = a i * a i - 2 * m * a i + m * m := fun i => by ring
    simp only [h2, Finset.sum_add_distrib, Finset.sum_sub_distrib, ← Finset.mul_sum, hS,
      Finset.sum_const, Finset.card_univ, Fintype.card_fin, nsmul_eq_mul]
    ring
  rw [h1]; field_simp; ring

/-- Over `ℝ`: the mean of the squared deviations is nonnegative (for any `n`, zero included). -/
theorem var_real_nonneg {n : ℕ} (a : Fin n → ℝ) :
    0 ≤ (∑ i, (a i - (∑ i, a i) / n) * (a i - (∑ i, a i) / n)) / n :=
  div_nonneg (Finset.sum_nonneg fun _ _ => mul_self_nonneg _) (Nat.cast_nonneg n)

/-- The right-hand side of `var_ereal` on coerced reals is the coerced real mean of squared
    deviations. -/
theorem var_ereal_rhs_coe {n : ℕ} (hn : 0 < n) (N : ℝ) (hN : N = n) (b : Fin n → ℝ) :
    Ideal.div (0 + ∑ i, ((b i : EReal) - Ideal.div (0 + ∑ i, (b i : EReal)) (N : EReal))
        * ((b i : EReal) - Ideal.div (0 + ∑ i, (b i : EReal)) (N : EReal))) (N : EReal)
      = (((∑ i, (b i - (∑ i, b i) / n) * (b i - (∑ i, b i) / n)) / n : ℝ) : EReal) := by
  subst hN
  have hN0 : (n : ℝ) ≠ 0 := by exact_mod_cast hn.ne'
  simp only [zero_add, ← coe_sum, div_coe_coe hN0, ← EReal.coe_sub, ← EReal.coe_mul]

/-- On extended reals that are reals, in the float operations' own spelling (`N` the real `n`,
    divisions by `(N : EReal)`, the right-hand sums with their initial value `0 +`): the mean of
    the squares minus the square of the mean is the mean of the squared deviations. -/
theorem var_ereal {n : ℕ} (hn : 0 < n) (N : ℝ) (hN : N = n) (a : Fin n → EReal)
    (ha : ∀ i, IsReal (a i)) :
    Ideal.div (∑ i, a i * a i) (N : EReal)
        - Ideal.div (∑ i, a i) (N : EReal) * Ideal.div (∑ i, a i) (N : EReal)
      = Ideal.div (0 + ∑ i, (a i - Ideal.div (0 + ∑ i, a i) (N : EReal))
          * (a i - Ideal.div (0 + ∑ i, a i) (N : EReal))) (N : EReal) := by
  choose b hb using ha
  obtain rfl : a = fun i => (b i : EReal) := funext hb
  rw [var_ereal_rhs_coe hn N hN b, ← var_real hn b]
  subst hN
  have hN0 : (n : ℝ) ≠ 0 := by exact_mod_cast hn.ne'
  simp only [← coe_sum, div_coe_coe hN0, ← EReal.coe_sub, ← EReal.coe_mul]

/-- Under the hypotheses of `var_ereal`, its right-hand side (hence its left-hand side) is a
    nonnegative real. -/
theorem var_ereal_isReal_nonneg {n : ℕ} (hn : 0 < n) (N : ℝ) (hN : N = n) (a : Fin n → EReal)
    (ha : ∀ i, IsReal (a i)) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  choose b hb using ha
  obtain rfl : a = fun i => (b i : EReal) := funext hb
  exact ⟨_, var_real_nonneg b, var_ereal_rhs_coe hn N hN b⟩

/-- The `f32` pattern `0x47435000` denotes `50000`. -/
theorem ofBits_50000 : Ideal.ofBits .f32 0x47435000#32 = ((50000 : ℝ) : EReal) := by
  simp [Ideal.ofBits, Ideal.ieee]
  rw [← EReal.coe_mul]
  norm_num

/-- The `f32` pattern `0x3727C5AC` (the one nearest `1e-5`) denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee]

/-- The guard `50000 - 0 > 0` evaluates to true. -/
theorem cmp_ogt_50000 :
    Ideal.cmp .ogt (((50000 : ℝ) : EReal) - ((0 : ℝ) : EReal)) 0 = 1#1 := by
  have h : (0 : EReal) < ((50000 : ℝ) : EReal) - ((0 : ℝ) : EReal) := by
    rw [← EReal.coe_sub]; exact_mod_cast (by norm_num : (0 : ℝ) < 50000 - 0)
  simp [Ideal.cmp, h]

end Cert.Lib.RealArith
-- ==== Proof.RefSpec.lean ====
/-
  The reference program's result, read at an index, is the shifted spelling `Spec.outR` with the
  row shift the program itself computes (the row maximum of the logits, taken over `-inf`).
-/
import proofs.«121411_g5935644803188_cont_9to1c4b_610_11_alg».proof.Proof.Gen.ReferenceIdeal.Read
import proofs.«121411_g5935644803188_cont_9to1c4b_610_11_alg».proof.Proof.Spec
import proofs.«121411_g5935644803188_cont_9to1c4b_610_11_alg».proof.Proof.LibRealArith
import Mathlib.Data.Finset.Fold

noncomputable section

namespace Cert.ReferenceIdeal.RefSpec

open Idealize.ShloMosaic Idealize.ShloMosaic.ValueIdx Cert.ReferenceIdeal Cert.ReferenceIdeal.Read Cert.Spec
  Cert.Lib.RealArith
open scoped BigOperators

/-- The row shift the reference computes: `max (-inf) (max_j logit[i, j])`, its stage `main_v14` at row `i`. -/
def refShift (x1 : (⟨S8192x128, .f32⟩ : BufTy).Contents (Elt Ideal)) (x2 : (⟨S64x128, .f32⟩ : BufTy).Contents (Elt Ideal))
    (x3 : (⟨S64, .f32⟩ : BufTy).Contents (Elt Ideal)) (x4 : (⟨S64x128, .f32⟩ : BufTy).Contents (Elt Ideal))
    (x5 : (⟨S64, .f32⟩ : BufTy).Contents (Elt Ideal)) (i : Fin 8192) : EReal :=
  val_main_v14 (F := Ideal) x1 x2 x3 x4 x5 (ix1 i)

/-! ## The two feature maps and the logits, read at an index -/

/-- The query features: stage `main_v4` at `(s, h)` is `Σ_d emb[s, d] · wq[h, d] + bq[h]`. -/
theorem v4_at (x1 : (⟨S8192x128, .f32⟩ : BufTy).Contents (Elt Ideal)) (x4 : (⟨S64x128, .f32⟩ : BufTy).Contents (Elt Ideal))
    (x5 : (⟨S64, .f32⟩ : BufTy).Contents (Elt Ideal)) (s : Fin 8192) (h : Fin 64) :
    val_main_v4 (F := Ideal) x1 x4 x5 (ix2 s h) = qry x1 x4 x5 s h := by
  have el : ∀ k : Fin 128, lidx_main_v1 (ix2 s h) k = ix2 s k := fun k =>
    funext fun a => Fin.ext (by match a with | ⟨0, _⟩ => rfl | ⟨1, _⟩ => rfl)
  have er : ∀ k : Fin 128, idx_main_v0 (ridx_main_v1 (ix2 s h) k) = ix2 h k := fun k =>
    funext fun a => Fin.ext (by match a with | ⟨0, _⟩ => rfl | ⟨1, _⟩ => rfl)
  have eb : idx_main_v2 (idx_main_v3 (ix2 s h)) = ix1 h :=
    funext fun a => Fin.ext (by match a with | ⟨0, _⟩ => rfl)
  rw [val_main_v4_apply, val_main_v1_apply, val_main_v3_apply, val_main_v2_apply, eb]
  simp only [val_main_v0_apply, el, er, Ideal.addf_def]
  rfl

/-- The key features, transposed: stage `main_v10` at `(h, s)` is `Σ_d wk[h, d] · emb[s, d] + bk[h]`
    (the program multiplies in the other order; the product of extended reals commutes). -/
theorem v10_at (x1 : (⟨S8192x128, .f32⟩ : BufTy).Contents (Elt Ideal)) (x2 : (⟨S64x128, .f32⟩ : BufTy).Contents (Elt Ideal))
    (x3 : (⟨S64, .f32⟩ : BufTy).Contents (Elt Ideal)) (h : Fin 64) (s : Fin 8192) :
    val_main_v10 (F := Ideal) x1 x2 x3 (ix2 h s) = keyT x1 x2 x3 h s := by
  have e10 : idx_main_v10 (ix2 h s) = ix2 s h :=
    funext fun a => Fin.ext (by match a with | ⟨0, _⟩ => rfl | ⟨1, _⟩ => rfl)
  have el : ∀ k : Fin 128, lidx_main_v6 (ix2 s h) k = ix2 s k := fun k =>
    funext fun a => Fin.ext (by match a with | ⟨0, _⟩ => rfl | ⟨1, _⟩ => rfl)
  have er : ∀ k : Fin 128, idx_main_v5 (ridx_main_v6 (ix2 s h) k) = ix2 h k := fun k =>
    funext fun a => Fin.ext (by match a with | ⟨0, _⟩ => rfl | ⟨1, _⟩ => rfl)
  have eb : idx_main_v7 (idx_main_v8 (ix2 s h)) = ix1 h :=
    funext fun a => Fin.ext (by match a with | ⟨0, _⟩ => rfl)
  rw [val_main_v10_apply, e10, val_main_v9_apply, val_main_v6_apply, val_main_v8_apply, val_main_v7_apply, eb]
  simp only [val_main_v5_apply, el, er, Ideal.addf_def]
  unfold keyT
  exact congrArg (· + x3 (ix1 h)) (Finset.sum_congr rfl fun d _ => mul_comm _ _)

/-- The logits: stage `main_v11` at `(i, j)` is `Σ_h qry[i, h] · keyT[h, j]`. -/
theorem v11_at (x1 : (⟨S8192x128, .f32⟩ : BufTy).Contents (Elt Ideal)) (x2 : (⟨S64x128, .f32⟩ : BufTy).Contents (Elt Ideal))
    (x3 : (⟨S64, .f32⟩ : BufTy).Contents (Elt Ideal)) (x4 : (⟨S64x128, .f32⟩ : BufTy).Contents (Elt Ideal))
    (x5 : (⟨S64, .f32⟩ : BufTy).Contents (Elt Ideal)) (i j : Fin 8192) :
    val_main_v11 (F := Ideal) x1 x2 x3 x4 x5 (ix2 i j) = logit x1 x2 x3 x4 x5 i j := by
  have el : ∀ k : Fin 64, lidx_main_v11 (ix2 i j) k = ix2 i k := fun k =>
    funext fun a => Fin.ext (by match a with | ⟨0, _⟩ => rfl | ⟨1, _⟩ => rfl)
  have er : ∀ k : Fin 64, ridx_main_v11 (ix2 i j) k = ix2 k j := fun k =>
    funext fun a => Fin.ext (by match a with | ⟨0, _⟩ => rfl | ⟨1, _⟩ => rfl)
  rw [val_main_v11_apply]
  simp only [el, er, v4_at, v10_at]
  rfl

/-! ## The row maximum is a real -/

/-- The `f32` pattern of `-inf` denotes the bottom element. -/
theorem ofBits_neg_inf : Ideal.ofBits .f32 0xFF800000#32 = ⊥ := by simp [Ideal.ofBits, Ideal.ieee]

/-- An extended real that is neither infinity is a real. -/
theorem isReal_of_ne {x : EReal} (hb : x ≠ ⊥) (ht : x ≠ ⊤) : IsReal x :=
  ⟨x.toReal, (EReal.coe_toReal ht hb).symm⟩

/-- The maximum, taken from `-inf`, of a nonempty finite family of reals is a real: it lies above some
    member (so it is not `-inf`) and below `+inf` strictly, as `-inf` and every member do. -/
theorem isReal_fold_max {ι : Type} (s : Finset ι) (hs : s.Nonempty) (f : ι → EReal) (hf : ∀ k ∈ s, IsReal (f k)) :
    IsReal (max ⊥ (s.fold max ⊥ f)) := by
  rw [max_eq_right bot_le]
  obtain ⟨k0, hk0⟩ := hs
  refine isReal_of_ne (ne_of_gt ?_) (ne_of_lt ?_)
  · exact (Finset.lt_fold_max _).2 (Or.inr ⟨k0, hk0, bot_lt_iff_ne_bot.2 (hf k0 hk0).ne_bot⟩)
  · exact (Finset.fold_max_lt _).2 ⟨bot_lt_top, fun k hk => lt_top_iff_ne_top.2 (hf k hk).ne_top⟩

/-- Where every logit is real, so is the reference's row shift (a maximum over a nonempty row). -/
theorem refShift_isReal (x1 : (⟨S8192x128, .f32⟩ : BufTy).Contents (Elt Ideal)) (x2 : (⟨S64x128, .f32⟩ : BufTy).Contents (Elt Ideal))
    (x3 : (⟨S64, .f32⟩ : BufTy).Contents (Elt Ideal)) (x4 : (⟨S64x128, .f32⟩ : BufTy).Contents (Elt Ideal))
    (x5 : (⟨S64, .f32⟩ : BufTy).Contents (Elt Ideal))
    (hl : ∀ i j, IsReal (logit x1 x2 x3 x4 x5 i j)) (i : Fin 8192) : IsReal (refShift x1 x2 x3 x4 x5 i) := by
  have hv : ∀ idx : S8192x8192.Idx, IsReal (val_main_v11 (F := Ideal) x1 x2 x3 x4 x5 idx) := by
    intro idx
    obtain ⟨a, b, rfl⟩ : ∃ a b, idx = ix2 a b := ⟨idx 0, idx 1, eq_ix2 idx⟩
    rw [v11_at]; exact hl a b
  unfold refShift
  rw [val_main_v14_apply, val_main_v13_apply, val_main_cst_0_apply]
  unfold val_main_v12
  rw [Host.reduce_eq_fold_single FloatOps.maximumf _ _ _ (by decide) Gen.h_S_, val_main_cst_apply, Ideal.maximumf_def,
    Ideal.ofBits_def, ofBits_neg_inf]
  exact isReal_fold_max Finset.univ ⟨⟨0, by decide⟩, Finset.mem_univ _⟩ _ (fun k _ => hv _)

/-! ## The softmax stages and the result, in terms of the row shift -/

/-- The broadcast shift: stage `main_v16` at `(i, j)` is the row shift of row `i`. -/
theorem v16_at (x1 : (⟨S8192x128, .f32⟩ : BufTy).Contents (Elt Ideal)) (x2 : (⟨S64x128, .f32⟩ : BufTy).Contents (Elt Ideal))
    (x3 : (⟨S64, .f32⟩ : BufTy).Contents (Elt Ideal)) (x4 : (⟨S64x128, .f32⟩ : BufTy).Contents (Elt Ideal))
    (x5 : (⟨S64, .f32⟩ : BufTy).Contents (Elt Ideal)) (i j : Fin 8192) :
    val_main_v16 (F := Ideal) x1 x2 x3 x4 x5 (ix2 i j) = refShift x1 x2 x3 x4 x5 i := by
  have e : idx_main_v15 (idx_main_v16 (ix2 i j)) = ix1 i :=
    funext fun a => Fin.ext (by match a with | ⟨0, _⟩ => rfl)
  rw [val_main_v16_apply, val_main_v15_apply, e]
  rfl

/-- The shifted exponential: stage `main_v18` at `(i, j)` is `exp (logit[i, j] - M i)`. -/
theorem v18_at (x1 : (⟨S8192x128, .f32⟩ : BufTy).Contents (Elt Ideal)) (x2 : (⟨S64x128, .f32⟩ : BufTy).Contents (Elt Ideal))
    (x3 : (⟨S64, .f32⟩ : BufTy).Contents (Elt Ideal)) (x4 : (⟨S64x128, .f32⟩ : BufTy).Contents (Elt Ideal))
    (x5 : (⟨S64, .f32⟩ : BufTy).Contents (Elt Ideal)) (i j : Fin 8192) :
    val_main_v18 (F := Ideal) x1 x2 x3 x4 x5 (ix2 i j)
      = Ideal.exp (logit x1 x2 x3 x4 x5 i j - refShift x1 x2 x3 x4 x5 i) := by
  rw [val_main_v18_apply, val_main_v17_apply, v11_at, v16_at, Ideal.hostUnary_exp_def, Ideal.subf_def]

/-- The shifted row sum: stage `main_v19` at `i` is `0 + Σ_j' exp (logit[i, j'] - M i)`. -/
theorem v19_at (x1 : (⟨S8192x128, .f32⟩ : BufTy).Contents (Elt Ideal)) (x2 : (⟨S64x128, .f32⟩ : BufTy).Contents (Elt Ideal))
    (x3 : (⟨S64, .f32⟩ : BufTy).Contents (Elt Ideal)) (x4 : (⟨S64x128, .f32⟩ : BufTy).Contents (Elt Ideal))
    (x5 : (⟨S64, .f32⟩ : BufTy).Contents (Elt Ideal)) (i : Fin 8192) :
    val_main_v19 (F := Ideal) x1 x2 x3 x4 x5 (ix1 i)
      = 0 + ∑ j' : Fin 8192, Ideal.exp (logit x1 x2 x3 x4 x5 i j' - refShift x1 x2 x3 x4 x5 i) := by
  have e : ∀ k : Fin 8192, idx_main_v19 (ix1 i) k = ix2 i k := fun k =>
    funext fun a => Fin.ext (by match a with | ⟨0, _⟩ => rfl | ⟨1, _⟩ => rfl)
  rw [val_main_v19_apply, val_main_cst_1_apply, Ideal.ofBits_def, Ideal.ofBits_zero_f32]
  simp only [e, v18_at]

/-- The transition matrix: stage `main_v22` at `(i, j)` is the shifted exponential over the shifted row sum. -/
theorem v22_at (x1 : (⟨S8192x128, .f32⟩ : BufTy).Contents (Elt Ideal)) (x2 : (⟨S64x128, .f32⟩ : BufTy).Contents (Elt Ideal))
    (x3 : (⟨S64, .f32⟩ : BufTy).Contents (Elt Ideal)) (x4 : (⟨S64x128, .f32⟩ : BufTy).Contents (Elt Ideal))
    (x5 : (⟨S64, .f32⟩ : BufTy).Contents (Elt Ideal)) (i j : Fin 8192) :
    val_main_v22 (F := Ideal) x1 x2 x3 x4 x5 (ix2 i j)
      = Ideal.div (Ideal.exp (logit x1 x2 x3 x4 x5 i j - refShift x1 x2 x3 x4 x5 i))
          (0 + ∑ j' : Fin 8192, Ideal.exp (logit x1 x2 x3 x4 x5 i j' - refShift x1 x2 x3 x4 x5 i)) := by
  have e : idx_main_v20 (idx_main_v21 (ix2 i j)) = ix1 i :=
    funext fun a => Fin.ext (by match a with | ⟨0, _⟩ => rfl)
  rw [val_main_v22_apply, val_main_v21_apply, val_main_v20_apply, e, v19_at, v18_at, Ideal.hostDivf_def]

/-- The reference's result at `(b, j)` is `Spec.outR` of its arguments at its own row shift.
    (Arguments in @main's order: belief, embedding, key weight, key bias, query weight, query bias.) -/
theorem ref_apply (x0 : (⟨S16x8192, .f32⟩ : BufTy).Contents (Elt Ideal)) (x1 : (⟨S8192x128, .f32⟩ : BufTy).Contents (Elt Ideal))
    (x2 : (⟨S64x128, .f32⟩ : BufTy).Contents (Elt Ideal)) (x3 : (⟨S64, .f32⟩ : BufTy).Contents (Elt Ideal))
    (x4 : (⟨S64x128, .f32⟩ : BufTy).Contents (Elt Ideal)) (x5 : (⟨S64, .f32⟩ : BufTy).Contents (Elt Ideal))
    (b : Fin 16) (j : Fin 8192) :
    val_main_v23 (F := Ideal) x0 x1 x2 x3 x4 x5 (ix2 b j) = outR x0 x1 x2 x3 x4 x5 (refShift x1 x2 x3 x4 x5) b j := by
  have el : ∀ k : Fin 8192, lidx_main_v23 (ix2 b j) k = ix2 b k := fun k =>
    funext fun a => Fin.ext (by match a with | ⟨0, _⟩ => rfl | ⟨1, _⟩ => rfl)
  have er : ∀ k : Fin 8192, ridx_main_v23 (ix2 b j) k = ix2 k j := fun k =>
    funext fun a => Fin.ext (by match a with | ⟨0, _⟩ => rfl | ⟨1, _⟩ => rfl)
  rw [val_main_v23_apply]
  simp only [el, er, v22_at]
  rfl

end Cert.ReferenceIdeal.RefSpec

end
-- ==== Proof.Law.lean ====
/-
  The two spellings of `belief · softmax(logit)` agree on real inputs.
-/
import proofs.«121411_g5935644803188_cont_9to1c4b_610_11_alg».proof.Proof.Spec
import proofs.«121411_g5935644803188_cont_9to1c4b_610_11_alg».proof.Proof.LibRealArith

noncomputable section

namespace Cert.Law

open Idealize.ShloMosaic Idealize.ShloMosaic.ValueIdx Cert.Spec Cert.Lib.RealArith
open scoped BigOperators

/-- A bilinear form plus a bias, `Σ_d x d · y d + c`, is real when every entry and the bias are. -/
theorem isReal_dot_add {κ : Type*} [Fintype κ] (x y : κ → EReal) (c : EReal)
    (hx : ∀ d, IsReal (x d)) (hy : ∀ d, IsReal (y d)) (hc : IsReal c) :
    IsReal ((∑ d, x d * y d) + c) :=
  (IsReal.sum _ _ fun d _ => (hx d).mul (hy d)).add hc

/-- With real embeddings, weights and biases every logit is a real number. -/
theorem logit_isReal (emb : Arr2 8192 128) (wk : Arr2 64 128) (bk : Arr1 64) (wq : Arr2 64 128) (bq : Arr1 64)
    (hemb : ∀ i, IsReal (emb i)) (hwk : ∀ i, IsReal (wk i)) (hbk : ∀ i, IsReal (bk i))
    (hwq : ∀ i, IsReal (wq i)) (hbq : ∀ i, IsReal (bq i)) (i j : Fin 8192) :
    IsReal (logit emb wk bk wq bq i j) := by
  unfold logit
  refine IsReal.sum _ _ fun h _ => IsReal.mul ?_ ?_
  · exact isReal_dot_add _ _ _ (fun d => hemb _) (fun d => hwq _) (hbq _)
  · exact isReal_dot_add _ _ _ (fun d => hwk _) (fun d => hemb _) (hbk _)

/-- Over `ℝ`: dividing `β` by the row sum of exponentials and multiplying by one exponential is
    `β` times the shifted exponential over the shifted row sum. The shift contributes the common
    factor `exp (-m)` to the numerator and to every term of the denominator, and it cancels. -/
theorem real_shift_cancel {ι : Type*} [Fintype ι] [Nonempty ι] (l : ι → ℝ) (m β : ℝ) (j : ι) :
    β / (∑ j', Real.exp (l j')) * Real.exp (l j)
      = β * (Real.exp (l j - m) / ∑ j', Real.exp (l j' - m)) := by
  have hZ : (0 : ℝ) < ∑ j', Real.exp (l j') :=
    Finset.sum_pos (fun j' _ => Real.exp_pos _) Finset.univ_nonempty
  have hS : (∑ j', Real.exp (l j' - m)) = (∑ j', Real.exp (l j')) / Real.exp m := by
    rw [Finset.sum_div]
    exact Finset.sum_congr rfl fun j' _ => Real.exp_sub _ _
  have hm : Real.exp m ≠ 0 := (Real.exp_pos m).ne'
  rw [hS, Real.exp_sub]
  field_simp

/-- A row sum of exponentials of reals is positive, hence not zero. -/
theorem sum_exp_ne_zero {ι : Type*} [Fintype ι] [Nonempty ι] (l : ι → ℝ) :
    (∑ j', Real.exp (l j')) ≠ 0 :=
  (Finset.sum_pos (fun j' _ => Real.exp_pos _) Finset.univ_nonempty).ne'

/-- The same cancellation on extended reals that are coerced reals, in the operations' own
    spelling (the shifted row sum carries its initial value `0 +`). -/
theorem shift_cancel {ι : Type*} [Fintype ι] [Nonempty ι] (l : ι → ℝ) (m β : ℝ) (j : ι) :
    Ideal.div (β : EReal) (∑ j', Ideal.exp ((l j' : ℝ) : EReal)) * Ideal.exp ((l j : ℝ) : EReal)
      = (β : EReal) * Ideal.div (Ideal.exp (((l j : ℝ) : EReal) - (m : EReal)))
          (0 + ∑ j', Ideal.exp (((l j' : ℝ) : EReal) - (m : EReal))) := by
  simp only [zero_add, ← EReal.coe_sub, Ideal.exp_coe, ← coe_sum]
  rw [div_coe_coe (sum_exp_ne_zero l), div_coe_coe (sum_exp_ne_zero fun j' => l j' - m),
    ← EReal.coe_mul, ← EReal.coe_mul, real_shift_cancel l m β j]

/-- On real inputs, and for any real row shift `M`, the unshifted and the shifted spelling agree. -/
theorem outK_eq_outR (belief : Arr2 16 8192) (emb : Arr2 8192 128) (wk : Arr2 64 128) (bk : Arr1 64)
    (wq : Arr2 64 128) (bq : Arr1 64)
    (hbel : ∀ i, IsReal (belief i)) (hemb : ∀ i, IsReal (emb i)) (hwk : ∀ i, IsReal (wk i))
    (hbk : ∀ i, IsReal (bk i)) (hwq : ∀ i, IsReal (wq i)) (hbq : ∀ i, IsReal (bq i))
    (M : Fin 8192 → EReal) (hM : ∀ i, IsReal (M i)) (b : Fin 16) (j : Fin 8192) :
    outK belief emb wk bk wq bq b j = outR belief emb wk bk wq bq M b j := by
  choose L hL using fun i j' => logit_isReal emb wk bk wq bq hemb hwk hbk hwq hbq i j'
  choose B hB using hbel
  choose m hm using hM
  unfold outK outR rowSum
  refine Finset.sum_congr rfl fun i _ => ?_
  simp only [hL, hB, hm]
  exact shift_cancel (L i) (m i) (B (ix2 b i)) j

end Cert.Law

end
-- ==== Proof.Finite.lean ====
/-
  The precondition "every float input is finite", opened: every entry of every argument is a real number.
-/
import proofs.«121411_g5935644803188_cont_9to1c4b_610_11_alg».proof.Pre_finite_inputs
import proofs.«121411_g5935644803188_cont_9to1c4b_610_11_alg».proof.Proof.LibRealArith
import Idealize.ShloMosaic.Lib.ReduceAll
import Idealize.ShloMosaic.Lib.ValueIdx

noncomputable section

namespace Cert.Finite

open Idealize.ShloMosaic Idealize.ShloMosaic.ValueIdx Cert.Lib.RealArith Cert.Pre_finite_inputs

variable [Cert.Pre_finite_inputs.Facts]

/-- The `f32` pattern `0x7F800000` denotes the top element `+∞`. -/
theorem ofBits_inf : Ideal.ofBits .f32 0x7F800000#32 = (⊤ : EReal) := by
  simp [Ideal.ofBits, Ideal.ieee]

/-- An extended real whose absolute value `max x (-x)` lies strictly below `⊤` is a real:
    both infinities have absolute value `⊤`. -/
theorem isReal_of_abs_lt_top (x : EReal) (hlt : max x (-x) < ⊤) : IsReal x := by
  induction x using EReal.rec with
  | bot => simp at hlt
  | top => simp at hlt
  | coe r => exact ⟨r, rfl⟩

/-- One element: where the comparison `|x| < +∞` answers one, `x` is a real. -/
theorem isReal_of_cmp (x : Ideal .f32)
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [ofBits_inf] at h'
  refine isReal_of_abs_lt_top x ?_
  by_contra hn
  simp [Ideal.cmp, hn] at h'

/-- Generic in the shape: where `all (|x| < +∞)`, a reduction by `and` from one over every axis, is one,
    every entry of `x` is a real. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant S_ .f32 0x7F800000#32)))
        (constantI S_ 1 1#1) hr hu ix0 = 1#1) (i : s.Idx) : IsReal (x i) := by
  -- a rank-0 shape has one index
  haveI : Subsingleton S_.Idx := ⟨fun a b => funext fun d => d.elim0⟩
  have hi := Host.reduce_andi_all _ _ hr hu ix0 e i
  exact isReal_of_cmp (x i) hi

/-- Where the printed predicate `finite_inputs` is all ones on six arrays, every entry of each is a real number. -/
theorem isReal_of_pre (a0 : FVec Ideal S16x8192 .f32) (a1 : FVec Ideal S8192x128 .f32) (a2 : FVec Ideal S64x128 .f32)
    (a3 : FVec Ideal S64 .f32) (a4 : FVec Ideal S64x128 .f32) (a5 : FVec Ideal S64 .f32)
    (h : Cert.Pre_finite_inputs.fn (F := Ideal) a0 a1 a2 a3 a4 a5 = (fun _ => 1#1)) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) := by
  have h0 := congrFun h ValueIdx.ix0
  dsimp only [Cert.Pre_finite_inputs.fn, Cert.Pre_finite_inputs.fn_part1] at h0
  change IntOp.andi _ _ = 1#1 at h0
  obtain ⟨h0, e5⟩ := IntOp.andi_eq_one.1 h0
  change IntOp.andi _ _ = 1#1 at h0
  obtain ⟨h0, e4⟩ := IntOp.andi_eq_one.1 h0
  change IntOp.andi _ _ = 1#1 at h0
  obtain ⟨h0, e3⟩ := IntOp.andi_eq_one.1 h0
  change IntOp.andi _ _ = 1#1 at h0
  obtain ⟨h0, e2⟩ := IntOp.andi_eq_one.1 h0
  change IntOp.andi _ _ = 1#1 at h0
  obtain ⟨e0, e1⟩ := IntOp.andi_eq_one.1 h0
  exact ⟨isReal_of_all a0 _ _ _ e0, isReal_of_all a1 _ _ _ e1, isReal_of_all a2 _ _ _ e2,
    isReal_of_all a3 _ _ _ e3, isReal_of_all a4 _ _ _ e4, isReal_of_all a5 _ _ _ e5⟩

end Cert.Finite

end
-- ==== Proof.lean ====
/-
  The kernel computes `belief · softmax(Q Kᵀ)` for `Q = emb · W_queryᵀ + b_query`, `K = emb · W_keyᵀ + b_key`
  in one pass over sixteen blocks of 512 rows of the 8192 × 8192 transition matrix, never forming it: per block it
  exponentiates the logits without subtracting a row maximum, sums each row, divides the matching belief columns by
  the row sums, and accumulates the product with the exponentials into the output. The reference forms the whole
  matrix and takes jnp's softmax, which subtracts each row's maximum before exponentiating.

  Over the extended reals both are the same function of finite inputs. The kernel's result array is
  `Spec.outK` of the six argument arrays (module `KRun`, over the generated frame run: what each grid point
  leaves, by induction on the point; the single write-back after the last point). The reference's result is
  `Spec.outR` at its own row shift, the row maximum (module `RefSpec`, over the generated run and its
  read-at-an-index lemmas). Finite inputs make every logit and every row shift a real number (`Finite`,
  `Law.logit_isReal`, `RefSpec.refShift_isReal`), and on real numbers the two spellings agree
  (`Law.outK_eq_outR`): `exp (l - m) = exp l / exp m`, and the factor `exp m` cancels between a row's numerator
  and its sum. The ideal pass rewrote nothing, so `preserves` has no conjunct; the three frames are the
  generated ones (the reference's is its generated run with the result dropped).
-/
import proofs.«121411_g5935644803188_cont_9to1c4b_610_11_alg».proof.Defs
import proofs.«121411_g5935644803188_cont_9to1c4b_610_11_alg».proof.Proof.Gen.Kernel
import proofs.«121411_g5935644803188_cont_9to1c4b_610_11_alg».proof.Proof.Gen.Kernel.Frame
import proofs.«121411_g5935644803188_cont_9to1c4b_610_11_alg».proof.Proof.Gen.KernelIdeal
import proofs.«121411_g5935644803188_cont_9to1c4b_610_11_alg».proof.Proof.Gen.KernelIdeal.Frame
import proofs.«121411_g5935644803188_cont_9to1c4b_610_11_alg».proof.Proof.Gen.KernelIdeal.Value
import proofs.«121411_g5935644803188_cont_9to1c4b_610_11_alg».proof.Proof.Gen.ReferenceIdeal
import proofs.«121411_g5935644803188_cont_9to1c4b_610_11_alg».proof.Proof.Gen.ReferenceIdeal.Run
import proofs.«121411_g5935644803188_cont_9to1c4b_610_11_alg».proof.Proof.Gen.ReferenceIdeal.Read
import proofs.«121411_g5935644803188_cont_9to1c4b_610_11_alg».proof.Proof.Gen.Pre_finite_inputs
import proofs.«121411_g5935644803188_cont_9to1c4b_610_11_alg».proof.Proof.KRun
import proofs.«121411_g5935644803188_cont_9to1c4b_610_11_alg».proof.Proof.RefSpec
import proofs.«121411_g5935644803188_cont_9to1c4b_610_11_alg».proof.Proof.Law
import proofs.«121411_g5935644803188_cont_9to1c4b_610_11_alg».proof.Proof.Finite

noncomputable section

namespace Cert.Proof

open Idealize.ShloMosaic Idealize.ShloMosaic.ValueIdx Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree and are finite, the kernel's result array (`Spec.outK`) and the reference's
    (`Spec.outR` at the row maxima) are equal entry by entry: every logit and every row maximum is real, and on
    reals the unshifted and the shifted softmax agree. -/
theorem algebraic : Cert.algebraic_KernelIdeal_ReferenceIdeal := by
  intro m ρ m' ρ' hpre hagree
  refine ⟨fun c => Cert.KernelIdeal.KRun.result m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2.1,
    (hagree c).2.2.2.2.1, (hagree c).2.2.2.2.2]
  obtain ⟨h0, h1, h2, h3, h4, h5⟩ := Cert.Finite.isReal_of_pre _ _ _ _ _ _ (hpre c)
  funext i
  obtain ⟨b, j, rfl⟩ : ∃ (b : Fin 16) (j : Fin 8192), i = ix2 b j := ⟨i 0, i 1, eq_ix2 i⟩
  rw [Cert.ReferenceIdeal.RefSpec.ref_apply]
  exact (Cert.Law.outK_eq_outR _ _ _ _ _ _ h0 h1 h2 h3 h4 h5 _
    (Cert.ReferenceIdeal.RefSpec.refShift_isReal _ _ _ _ _
      (Cert.Law.logit_isReal _ _ _ _ _ h1 h2 h3 h4 h5)) b j).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
